-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x1024 : Shape := ⟨2, ![2048, 1024]⟩
abbrev S2048 : Shape := ⟨1, ![2048]⟩
abbrev S209715 : Shape := ⟨1, ![209715]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S209715 : S_.BroadcastsInDim S209715 (![] : Fin 0 → Fin S209715.rank)
  reducesTo_S209715_S_d0 : S209715.ReducesTo [0] S_

variable [Facts]

def fn_part1 {F : FTy → Type} [FloatOps F] (main_arg4 : IVec S209715 32) (main_arg5 : IVec S209715 32) (main_v13 : IVec S_ 1) (main_v15 : IVec S209715 1) (main_c_5 : IVec S_ 1) : IVec S_ 1 :=
  let main_v16 : IVec S_ 1 := (fun x v => Host.reduce IntOp.andi x v reducesTo_S209715_S_d0 h_S_) main_v15 main_c_5
  let main_v17 : IVec S_ 1 := andi main_v13 main_v16
  let main_c_6 : IVec S_ 32 := constantI S_ 32 2048#32
  let main_v18 : IVec S209715 32 := broadcastInDim S209715 ![] bcast_S_S209715 main_c_6
  let main_v19 : IVec S209715 1 := cmpi .slt main_arg4 main_v18
  let main_c_7 : IVec S_ 1 := constantI S_ 1 1#1
  let main_v20 : IVec S_ 1 := (fun x v => Host.reduce IntOp.andi x v reducesTo_S209715_S_d0 h_S_) main_v19 main_c_7
  let main_v21 : IVec S_ 1 := andi main_v17 main_v20
  let main_c_8 : IVec S_ 32 := constantI S_ 32 0#32
  let main_v22 : IVec S209715 32 := broadcastInDim S209715 ![] bcast_S_S209715 main_c_8
  let main_v23 : IVec S209715 1 := cmpi .sge main_arg5 main_v22
  let main_c_9 : IVec S_ 1 := constantI S_ 1 1#1
  let main_v24 : IVec S_ 1 := (fun x v => Host.reduce IntOp.andi x v reducesTo_S209715_S_d0 h_S_) main_v23 main_c_9
  let main_v25 : IVec S_ 1 := andi main_v21 main_v24
  let main_c_10 : IVec S_ 32 := constantI S_ 32 2048#32
  let main_v26 : IVec S209715 32 := broadcastInDim S209715 ![] bcast_S_S209715 main_c_10
  let main_v27 : IVec S209715 1 := cmpi .slt main_arg5 main_v26
  let main_c_11 : IVec S_ 1 := constantI S_ 1 1#1
  let main_v28 : IVec S_ 1 := (fun x v => Host.reduce IntOp.andi x v reducesTo_S209715_S_d0 h_S_) main_v27 main_c_11
  let main_v29 : IVec S_ 1 := andi main_v25 main_v28
  main_v29

def fn {F : FTy → Type} [FloatOps F] (main_arg0 : FVec F S4x4096x2048 .f32) (main_arg1 : IVec S2048x1024 32) (main_arg2 : FVec F S2048 .f32) (main_arg3 : FVec F S209715 .f32) (main_arg4 : IVec S209715 32) (main_arg5 : IVec S209715 32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S209715 .f32 := Host.absf main_arg3
  let main_cst_2 : FVec F S_ .f32 := constant S_ .f32 0x7F800000#32
  let main_v10 : FVec F S209715 .f32 := broadcastInDim S209715 ![] bcast_S_S209715 main_cst_2
  let main_v11 : IVec S209715 1 := cmpf .olt main_v9 main_v10
  let main_c_3 : IVec S_ 1 := constantI S_ 1 1#1
  let main_v12 : IVec S_ 1 := (fun x v => Host.reduce IntOp.andi x v reducesTo_S209715_S_d0 h_S_) main_v11 main_c_3
  let main_v13 : IVec S_ 1 := andi main_v8 main_v12
  let main_c_4 : IVec S_ 32 := constantI S_ 32 0#32
  let main_v14 : IVec S209715 32 := broadcastInDim S209715 ![] bcast_S_S209715 main_c_4
  let main_v15 : IVec S209715 1 := cmpi .sge main_arg4 main_v14
  let main_c_5 : IVec S_ 1 := constantI S_ 1 1#1
  fn_part1 (F := F) main_arg4 main_arg5 main_v13 main_v15 main_c_5
-- ==== Kernel.lean ====
abbrev S4x4096x2048 : Shape := ⟨3, ![4, 4096, 2048]⟩
abbrev S2048x1024 : Shape := ⟨2, ![2048, 1024]⟩
abbrev S2048 : Shape := ⟨1, ![2048]⟩
abbrev S209715 : Shape := ⟨1, ![209715]⟩
abbrev S_ : Shape := ⟨0, ![]⟩
abbrev S2048x1024x1 : Shape := ⟨3, ![2048, 1024, 1]⟩
abbrev S2048x1024x2 : Shape := ⟨3, ![2048, 1024, 2]⟩
abbrev S2048x2048 : Shape := ⟨2, ![2048, 2048]⟩
abbrev S2048x1 : Shape := ⟨2, ![2048, 1]⟩
abbrev S4194304 : Shape := ⟨1, ![4194304]⟩
abbrev S209715x1 : Shape := ⟨2, ![209715, 1]⟩
abbrev S16384x2048 : Shape := ⟨2, ![16384, 2048]⟩
abbrev S512x2048 : Shape := ⟨2, ![512, 2048]⟩

abbrev nBuf : Space → Nat
  | .hbm => 50
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x1024, .i32⟩
  | .hbm, ⟨2, _⟩ => ⟨S2048, .f32⟩
  | .hbm, ⟨3, _⟩ => ⟨S209715, .f32⟩
  | .hbm, ⟨4, _⟩ => ⟨S209715, .i32⟩
  | .hbm, ⟨5, _⟩ => ⟨S209715, .i32⟩
  | .hbm, ⟨6, _⟩ => ⟨S_, .i32⟩
  | .hbm, ⟨7, _⟩ => ⟨S2048x1024, .i32⟩
  | .hbm, ⟨8, _⟩ => ⟨S2048x1024, .i32⟩
  | .hbm, ⟨9, _⟩ => ⟨S_, .i32⟩
  | .hbm, ⟨10, _⟩ => ⟨S2048x1024, .i32⟩
  | .hbm, ⟨11, _⟩ => ⟨S2048x1024, .i32⟩
  | .hbm, ⟨12, _⟩ => ⟨S_, .i32⟩
  | .hbm, ⟨13, _⟩ => ⟨S2048x1024, .i32⟩
  | .hbm, ⟨14, _⟩ => ⟨S2048x1024, .i32⟩
  | .hbm, ⟨15, _⟩ => ⟨S2048x1024x1, .i32⟩
  | .hbm, ⟨16, _⟩ => ⟨S2048x1024x1, .i32⟩
  | .hbm, ⟨17, _⟩ => ⟨S2048x1024x2, .i32⟩
  | .hbm, ⟨18, _⟩ => ⟨S2048x2048, .i32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S_, .i32⟩
  | .hbm, ⟨27, _⟩ => ⟨S209715, .i32⟩
  | .hbm, ⟨28, _⟩ => ⟨S209715, .i32⟩
  | .hbm, ⟨29, _⟩ => ⟨S209715, .i32⟩
  | .hbm, ⟨30, _⟩ => ⟨S_, .f32⟩
  | .hbm, ⟨31, _⟩ => ⟨S4194304, .f32⟩
  | .hbm, ⟨32, _⟩ => ⟨S_, .i32⟩
  | .hbm, ⟨33, _⟩ => ⟨S209715, .i32⟩
  | .hbm, ⟨34, _⟩ => ⟨S209715, .i1⟩
  | .hbm, ⟨35, _⟩ => ⟨S_, .i32⟩
  | .hbm, ⟨36, _⟩ => ⟨S209715, .i32⟩
  | .hbm, ⟨37, _⟩ => ⟨S209715, .i32⟩
  | .hbm, ⟨38, _⟩ => ⟨S209715, .i32⟩
  | .hbm, ⟨39, _⟩ => ⟨S209715x1, .i32⟩
  | .hbm, ⟨40, _⟩ => ⟨S4194304, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S16384x2048, .f32⟩
  | .hbm, ⟨48, _⟩ => ⟨S16384x2048, .f32⟩
  | .hbm, ⟨49, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S512x2048, .f32⟩
  | .local _ .vmem, ⟨4, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2048x1024 : S_.BroadcastsInDim S2048x1024 (![] : Fin 0 → Fin S2048x1024.rank)
  bcast_S2048x1024_S2048x1024x1_0_1 : S2048x1024.BroadcastsInDim S2048x1024x1 (![0, 1] : Fin 2 → Fin S2048x1024x1.rank)
  concatenates_S2048x1024x1_S2048x1024x1_S2048x1024x2_d2 : Shape.Concatenates [S2048x1024x1, S2048x1024x1] S2048x1024x2 2
  shapeCasts_S2048x1024x2_S2048x2048 : S2048x1024x2.ShapeCasts S2048x2048
  bcast_S_S2048x2048 : S_.BroadcastsInDim S2048x2048 (![] : Fin 0 → Fin S2048x2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S_S209715 : S_.BroadcastsInDim S209715 (![] : Fin 0 → Fin S209715.rank)
  bcast_S_S4194304 : S_.BroadcastsInDim S4194304 (![] : Fin 0 → Fin S4194304.rank)
  bcast_S209715_S209715x1_0 : S209715.BroadcastsInDim S209715x1 (![0] : Fin 1 → Fin S209715x1.rank)
  shapeCasts_S4194304_S2048x2048 : S4194304.ShapeCasts S2048x2048
  transposes_S2048x2048_S2048x2048_1_0 : S2048x2048.Transposes [1, 0] S2048x2048
  shapeCasts_S4x4096x2048_S16384x2048 : S4x4096x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S16384x2048_S4x4096x2048 : S16384x2048.ShapeCasts S4x4096x2048
  scatter_S4194304_S209715x1_S209715_n_0_0_1_wf : ScatterDims.WF S4194304 S209715x1 S209715 [] [0] [0] 1
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

def scatter_S4194304_S209715x1_S209715_n_0_0_1 : ScatterDims S4194304 S209715x1 S209715 where
  updateWindowDims := []
  insertedWindowDims := [0]
  scatterDimsToOperandDims := [0]
  indexVectorDim := 1
  wf := scatter_S4194304_S209715x1_S209715_n_0_0_1_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v32) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x1024 : Shape := ⟨2, ![2048, 1024]⟩
abbrev S2048 : Shape := ⟨1, ![2048]⟩
abbrev S209715 : Shape := ⟨1, ![209715]⟩
abbrev S_ : Shape := ⟨0, ![]⟩
abbrev S2048x1024x1 : Shape := ⟨3, ![2048, 1024, 1]⟩
abbrev S2048x1024x2 : Shape := ⟨3, ![2048, 1024, 2]⟩
abbrev S2048x2048 : Shape := ⟨2, ![2048, 2048]⟩
abbrev S2048x1 : Shape := ⟨2, ![2048, 1]⟩
abbrev S209715x1 : Shape := ⟨2, ![209715, 1]⟩
abbrev S209715x2 : Shape := ⟨2, ![209715, 2]⟩
abbrev S16384x2048 : Shape := ⟨2, ![16384, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x1024, .i32⟩
  | .hbm, ⟨2, _⟩ => ⟨S2048, .f32⟩
  | .hbm, ⟨3, _⟩ => ⟨S209715, .f32⟩
  | .hbm, ⟨4, _⟩ => ⟨S209715, .i32⟩
  | .hbm, ⟨5, _⟩ => ⟨S209715, .i32⟩
  | .hbm, ⟨6, _⟩ => ⟨S_, .i32⟩
  | .hbm, ⟨7, _⟩ => ⟨S2048x1024, .i32⟩
  | .hbm, ⟨8, _⟩ => ⟨S2048x1024, .i32⟩
  | .hbm, ⟨9, _⟩ => ⟨S_, .i32⟩
  | .hbm, ⟨10, _⟩ => ⟨S2048x1024, .i32⟩
  | .hbm, ⟨11, _⟩ => ⟨S2048x1024, .i32⟩
  | .hbm, ⟨12, _⟩ => ⟨S_, .i32⟩
  | .hbm, ⟨13, _⟩ => ⟨S2048x1024, .i32⟩
  | .hbm, ⟨14, _⟩ => ⟨S2048x1024, .i32⟩
  | .hbm, ⟨15, _⟩ => ⟨S2048x1024x1, .i32⟩
  | .hbm, ⟨16, _⟩ => ⟨S2048x1024x1, .i32⟩
  | .hbm, ⟨17, _⟩ => ⟨S2048x1024x2, .i32⟩
  | .hbm, ⟨18, _⟩ => ⟨S2048x2048, .i32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S_, .i32⟩
  | .hbm, ⟨29, _⟩ => ⟨S209715, .i32⟩
  | .hbm, ⟨30, _⟩ => ⟨S209715, .i1⟩
  | .hbm, ⟨31, _⟩ => ⟨S_, .i32⟩
  | .hbm, ⟨32, _⟩ => ⟨S209715, .i32⟩
  | .hbm, ⟨33, _⟩ => ⟨S209715, .i32⟩
  | .hbm, ⟨34, _⟩ => ⟨S209715, .i32⟩
  | .hbm, ⟨35, _⟩ => ⟨S_, .i32⟩
  | .hbm, ⟨36, _⟩ => ⟨S209715, .i32⟩
  | .hbm, ⟨37, _⟩ => ⟨S209715, .i1⟩
  | .hbm, ⟨38, _⟩ => ⟨S_, .i32⟩
  | .hbm, ⟨39, _⟩ => ⟨S209715, .i32⟩
  | .hbm, ⟨40, _⟩ => ⟨S209715, .i32⟩
  | .hbm, ⟨41, _⟩ => ⟨S209715, .i32⟩
  | .hbm, ⟨42, _⟩ => ⟨S209715x1, .i32⟩
  | .hbm, ⟨43, _⟩ => ⟨S209715x1, .i32⟩
  | .hbm, ⟨44, _⟩ => ⟨S209715x2, .i32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S16384x2048, .f32⟩
  | .hbm, ⟨51, _⟩ => ⟨S16384x2048, .f32⟩
  | .hbm, ⟨52, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S_S2048x1024 : S_.BroadcastsInDim S2048x1024 (![] : Fin 0 → Fin S2048x1024.rank)
  bcast_S2048x1024_S2048x1024x1_0_1 : S2048x1024.BroadcastsInDim S2048x1024x1 (![0, 1] : Fin 2 → Fin S2048x1024x1.rank)
  concatenates_S2048x1024x1_S2048x1024x1_S2048x1024x2_d2 : Shape.Concatenates [S2048x1024x1, S2048x1024x1] S2048x1024x2 2
  shapeCasts_S2048x1024x2_S2048x2048 : S2048x1024x2.ShapeCasts S2048x2048
  bcast_S_S2048x2048 : S_.BroadcastsInDim S2048x2048 (![] : Fin 0 → Fin S2048x2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S_S209715 : S_.BroadcastsInDim S209715 (![] : Fin 0 → Fin S209715.rank)
  bcast_S209715_S209715x1_0 : S209715.BroadcastsInDim S209715x1 (![0] : Fin 1 → Fin S209715x1.rank)
  concatenates_S209715x1_S209715x1_S209715x2_d1 : Shape.Concatenates [S209715x1, S209715x1] S209715x2 1
  shapeCasts_S4x4096x2048_S16384x2048 : S4x4096x2048.ShapeCasts S16384x2048
  shapeCasts_S16384x2048_S4x4096x2048 : S16384x2048.ShapeCasts S4x4096x2048
  scatter_S2048x2048_S209715x2_S209715_n_01_01_1_wf : ScatterDims.WF S2048x2048 S209715x2 S209715 [] [0, 1] [0, 1] 1
  dot_S16384x2048_S2048x2048_S16384x2048_1_1_0_0_n_n_wf : DotDims.WF S16384x2048 S2048x2048 S16384x2048 [1] [1] [0] [0] [] []

variable [Facts₀]

def scatter_S2048x2048_S209715x2_S209715_n_01_01_1 : ScatterDims S2048x2048 S209715x2 S209715 where
  updateWindowDims := []
  insertedWindowDims := [0, 1]
  scatterDimsToOperandDims := [0, 1]
  indexVectorDim := 1
  wf := scatter_S2048x2048_S209715x2_S209715_n_01_01_1_wf
def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf

class Facts : Prop extends Facts₀ where

variable [Facts]
-- ==== Proof.IndexRange.lean ====
/-
  The index range the precondition states, read back.

  The precondition's last four conjuncts are `jnp.all(rows ≥ 0)`, `jnp.all(rows < 2048)`, `jnp.all(cols ≥ 0)` and
  `jnp.all(cols < 2048)` over the two index vectors of the sparse residual: each a signed compare of the whole vector
  against a broadcast constant, reduced by `and` from `true`. When the predicate is `true`, every one of the four
  reductions is, so every entry of each compare is, and a word `w` with `0 ≤ w` and `w < 2048` signed has its signed
  value in `[0, 2048)`.
-/
import proofs.«411356_j833223655699_2_alg».proof.Pre_finite_inputs
import Idealize.ShloMosaic.Lib.ReduceAll
import Idealize.ShloMosaic.Lib.StableHlo.Predicate
import Idealize.ShloMosaic.Lib.ValueIdx

noncomputable section

namespace Cert.IndexRange

open Idealize.ShloMosaic Idealize.ShloMosaic.ValueIdx Cert.Pre_finite_inputs

instance : Subsingleton Cert.Pre_finite_inputs.S_.Idx := ⟨fun _ _ => funext fun d => d.elim0⟩

/-- A word that compares `≥ 0` and `< 2048` signed has its signed value in `[0, 2048)`. -/
theorem word_range (w : BitVec 32) (h0 : IntOp.cmpi .sge w 0#32 = 1#1) (h1 : IntOp.cmpi .slt w 2048#32 = 1#1) :
    0 ≤ w.toInt ∧ w.toInt < 2048 := by
  unfold IntOp.cmpi at h0 h1
  rw [StableHlo.Predicate.ofBool_eq_one_iff] at h0 h1
  simp only [BitVec.sle, BitVec.slt, decide_eq_true_eq] at h0 h1
  have z : (0#32 : BitVec 32).toInt = 0 := by decide
  have k : (2048#32 : BitVec 32).toInt = 2048 := by decide
  rw [z] at h0
  rw [k] at h1
  exact ⟨h0, h1⟩

variable {F : FTy → Type} [FloatOps F] [Cert.Pre_finite_inputs.Facts]

/-- THE PRECONDITION'S INDEX RANGE: where the predicate is `true`, every row index and every column index of the sparse
    residual, read signed, lies in `[0, 2048)`. -/
theorem rows_cols_range (a0 : FVec F S4x4096x2048 .f32) (a1 : IVec S2048x1024 32) (a2 : FVec F S2048 .f32)
    (a3 : FVec F S209715 .f32) (rows cols : IVec S209715 32)
    (h : fn (F := F) a0 a1 a2 a3 rows cols = fun _ => 1#1) (j : S209715.Idx) :
    (0 ≤ (rows j).toInt ∧ (rows j).toInt < 2048) ∧ (0 ≤ (cols j).toInt ∧ (cols j).toInt < 2048) := by
  have e := congrFun h ix0
  dsimp only [fn, fn_part1] at e
  simp only [andi, IntOp.andi_eq_one] at e
  obtain ⟨⟨⟨⟨-, hr0⟩, hr1⟩, hc0⟩, hc1⟩ := e
  have r0 := Host.reduce_andi_all _ _ _ _ _ hr0 j
  have r1 := Host.reduce_andi_all _ _ _ _ _ hr1 j
  have c0 := Host.reduce_andi_all _ _ _ _ _ hc0 j
  have c1 := Host.reduce_andi_all _ _ _ _ _ hc1 j
  simp only [cmpi, broadcastInDim, constantI] at r0 r1 c0 c1
  exact ⟨word_range _ r0 r1, word_range _ c0 c1⟩

end Cert.IndexRange

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.KernelValue.lean ====
/-
  What the idealized kernel computes, as one function of the argument arrays.

  Before the region the host builds the weight matrix `W = base + 1 · residual` (`base` the dequantized nibbles times the
  per-row scale, `residual` the sparse values accumulated at their flat positions and viewed as `[2048, 2048]`),
  transposes it, and flattens the tokens to `X : [16384, 2048]`. Grid point `t` of the region multiplies rows
  `512 t … 512 t + 511` of `X` by the whole transposed matrix into a zero accumulator and writes the product to the same
  rows of the output; the 32 row blocks tile the output. So the output array ends at
  `out[r, o] = ∑ₖ X[r, k] · Wᵀ[k, o]`, and the host's last operation views it as `[4, 4096, 2048]`.
-/
import proofs.«411356_j833223655699_2_alg».proof.Proof.Gen.KernelIdeal.Frame
import proofs.«411356_j833223655699_2_alg».proof.Proof.LibPlainDot
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)

/-! ## The host's terms before the region -/

section Terms
variable {F : FTy → Type} [FloatOps F]

/-- The tokens, flattened to `[16384, 2048]`. -/
def xflat (x0 : FVec F S4x4096x2048 .f32) : FVec F S16384x2048 .f32 :=
  shapeCast S16384x2048 x0 shapeCasts_S4x4096x2048_S16384x2048

/-- The dequantized base weights: the low and the high nibble of every packed word side by side, as numbers, minus 8,
    times the row's scale. -/
def base (x1 : IVec S2048x1024 32) (x2 : FVec F S2048 .f32) : FVec F S2048x2048 .f32 :=
  mulf (subf (sitofp .f32 (shapeCast S2048x2048 (concatenate S2048x1024x2 2
      [⟨S2048x1024x1, broadcastInDim S2048x1024x1 ![0, 1] bcast_S2048x1024_S2048x1024x1_0_1
          (andi x1 (broadcastInDim S2048x1024 ![] bcast_S_S2048x1024 (constantI S_ 32 15#32)))⟩,
       ⟨S2048x1024x1, broadcastInDim S2048x1024x1 ![0, 1] bcast_S2048x1024_S2048x1024x1_0_1
          (andi (Host.shrsi x1 (broadcastInDim S2048x1024 ![] bcast_S_S2048x1024 (constantI S_ 32 4#32)))
            (broadcastInDim S2048x1024 ![] bcast_S_S2048x1024 (constantI S_ 32 15#32)))⟩]
      concatenates_S2048x1024x1_S2048x1024x1_S2048x1024x2_d2) shapeCasts_S2048x1024x2_S2048x2048))
    (broadcastInDim S2048x2048 ![] bcast_S_S2048x2048 (constant S_ .f32 0x41000000#32)))
    (broadcastInDim S2048x2048 ![0, 1] bcast_S2048x1_S2048x2048_0_1 (broadcastInDim S2048x1 ![0] bcast_S2048_S2048x1_0 x2))

/-- A constant word at every update. -/
abbrev splat (b : BitVec 32) : IVec S209715 32 := broadcastInDim S209715 ![] bcast_S_S209715 (constantI S_ 32 b)

/-- The flat position `rows · 2048 + cols` of every update. -/
def lin (x4 x5 : IVec S209715 32) : IVec S209715 32 := addi (muli x4 (splat 2048#32)) x5

/-- The scatter indices: the flat positions, a negative one wrapped by `2048 · 2048`, as a column. -/
def flatIdx (x4 x5 : IVec S209715 32) : IVec S209715x1 32 :=
  broadcastInDim S209715x1 ![0] bcast_S209715_S209715x1_0
    (select (cmpi .slt (lin x4 x5) (splat 0#32)) (addi (lin x4 x5) (splat 4194304#32)) (lin x4 x5))

/-- The sparse residual: the values accumulated into a zero vector at the flat positions, viewed as `[2048, 2048]`. -/
def residual (x3 : FVec F S209715 .f32) (x4 x5 : IVec S209715 32) : FVec F S2048x2048 .f32 :=
  shapeCast S2048x2048 (Host.scatterAdd scatter_S4194304_S209715x1_S209715_n_0_0_1
    (broadcastInDim S4194304 ![] bcast_S_S4194304 (constant S_ .f32 0x00000000#32)) (flatIdx x4 x5) x3) shapeCasts_S4194304_S2048x2048

/-- The weight matrix `[out, in]`: base plus one times the residual. -/
def weight (x1 : IVec S2048x1024 32) (x2 : FVec F S2048 .f32) (x3 : FVec F S209715 .f32) (x4 x5 : IVec S209715 32) :
    FVec F S2048x2048 .f32 :=
  addf (base x1 x2) (mulf (broadcastInDim S2048x2048 ![] bcast_S_S2048x2048 (constant S_ .f32 0x3F800000#32)) (residual x3 x4 x5))

/-- Its transpose `[in, out]`, the region's second operand. -/
def weightT (x1 : IVec S2048x1024 32) (x2 : FVec F S2048 .f32) (x3 : FVec F S209715 .f32) (x4 x5 : IVec S209715 32) :
    FVec F S2048x2048 .f32 :=
  transpose S2048x2048 [1, 0] (weight x1 x2 x3 x4 x5) transposes_S2048x2048_S2048x2048_1_0

end Terms

/-- The product of the flattened tokens and the transposed weights: `out[r, o] = ∑ₖ X[r, k] · Wᵀ[k, o]`. -/
def outFlat (X : S16384x2048.Idx → EReal) (WT : S2048x2048.Idx → EReal) : S16384x2048.Idx → EReal :=
  fun i => ∑ k : Fin 2048, X (ix2 (i 0 : Fin 16384) k) * WT (ix2 k (i 1 : Fin 2048))

variable (m : (ℓ : Loc nD τ sig) → Buf (Elt Ideal) ℓ) (ρ : Dev nD → PrngReg)

/-! ## What the region finds in its two input arrays -/

/-- The first operand's array holds the flattened tokens. -/
theorem V_tokens (c : Dev nD) :
    (V m c main_v32 : S16384x2048.Idx → EReal) = xflat (F := Ideal) (m ((c : Thread nD τ).loc main_arg0)) := by
  show StableHlo.after hostOps0 (fun b => m (c, b)) (Proc.devRef .tc main_v32) = _
  after_results
  rfl

/-- The second operand's array holds the transposed weights. -/
theorem V_weights (c : Dev nD) :
    (V m c main_v31 : S2048x2048.Idx → EReal) = weightT (F := Ideal) (m ((c : Thread nD τ).loc main_arg1))
      (m ((c : Thread nD τ).loc main_arg2)) (m ((c : Thread nD τ).loc main_arg3)) (m ((c : Thread nD τ).loc main_arg4))
      (m ((c : Thread nD τ).loc main_arg5)) := by
  show StableHlo.after hostOps0 (fun b => m (c, b)) (Proc.devRef .tc main_v31) = _
  after_results_simp
  rfl

end Cert.KernelIdeal.KValue

end
-- ==== Proof.KernelRun.lean ====
/-
  The idealized kernel's run, with its result named.

  The body's product at `(p, q)` of a point's blocks is `∑ₖ Xblk[p, k] · Wᵀ[k, q]`; the tokens' block at point `t` is rows
  `512 t …` of the flattened tokens and the weights' block is the whole transposed matrix, so what point `t` writes back
  is rows `512 t …` of `out[r, o] = ∑ₖ X[r, k] · Wᵀ[k, o]`. Row `r` is in the block of point `r / 512`, so the 32 blocks
  cover the output array, which therefore ends at `out`; the host's reshape after the region views it as
  `[4, 4096, 2048]`.
-/
import proofs.«411356_j833223655699_2_alg».proof.Proof.KernelValue

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)

/-! ## The body's product at an index -/

theorem origin : (![0, 0] : Fin 2 → Nat) = fun _ => 0 := funext fun a => by fin_cases a <;> rfl

/-- The body's one stored value, a product into a zero accumulator, at `(p, q)`: `∑ₖ x0[p, k] · x1[k, q]`. -/
theorem product_apply (x0 : Vec Ideal S512x2048 .f32) (x1 : Vec Ideal S2048x2048 .f32) (j : S512x2048.Idx) :
    k0_pay1 (F := Ideal) x0 x1 j = ∑ k : Fin 2048, x0 (ix2 (j 0 : Fin 512) k) * x1 (ix2 k (j 1 : Fin 2048)) := by
  obtain ⟨p, q, rfl⟩ : ∃ (p : Fin 512) (q : Fin 2048), j = ix2 p q := ⟨j 0, j 1, eq_ix2 j⟩
  simp only [k0_pay1, shapeCast_self]
  exact PlainDot.matmul_zero_apply 512 2048 2048 (some .fp32) x0 x1 p q

/-! ## The blocks -/

/-- The printed index maps over the grid: the tokens' block moves with the output's along the rows and the weights' block
    stays; every block starts at column 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the 32 row blocks is some point's. -/
theorem idx_onto : ∀ q : Fin 32, ∃ t : Fin cfg0.N, win0_2.index t (0 : Fin 2) = q.val :=
  (by decide +kernel : ∀ q : Fin 32, ∃ t : Fin grid0.N, win0_2.index t (0 : Fin 2) = q.val)

variable (m : (ℓ : Loc nD τ sig) → Buf (Elt Ideal) ℓ) (ρ : Dev nD → PrngReg)

/-- The two input arrays as the region finds them, at their literal types. -/
abbrev tokensV (c : Dev nD) : S16384x2048.Idx → EReal := V m c main_v32
abbrev weightsV (c : Dev nD) : S2048x2048.Idx → EReal := V m c main_v31

theorem tokensV_eq (c : Dev nD) : tokensV m c = xflat (F := Ideal) (m ((c.tc : Thread nD τ).loc main_arg0)) := V_tokens m c
theorem weightsV_eq (c : Dev nD) : weightsV m c = weightT (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := V_weights m c

/-- WHAT POINT `t` WRITES BACK is block `t` of the product of the two arrays the region found. -/
theorem flushed_eq (c : Dev nD) (t : Fin cfg0.N) :
    (dats m 0 c).flushed 2 t = ((cfg0.win 2).blk t).view.read (Elt Ideal) (outFlat (tokensV m c) (weightsV m c)) := by
  show (cfg0.win 2).cut (grid0.coords t) ((dats m 0 c).after 2 t) = _
  rw [after0_2]
  unfold out0_2
  rw [View.canon_unit_zero origin]
  simp only [View.ld_unit_zero (S := S512x2048) origin, View.ld_unit_zero (S := S2048x2048) origin]
  obtain ⟨e0, e1, e2, e3, e4⟩ := idx_facts t
  funext j
  show k0_pay1 (F := Ideal) (iblk m c 0 t) (iblk m c 1 t) j = outFlat (tokensV m c) (weightsV m c) (((cfg0.win 2).blk t).view.emb j)
  refine (product_apply (iblk m c 0 t) (iblk m c 1 t) j).trans ?_
  unfold outFlat
  refine Finset.sum_congr rfl fun k _ => ?_
  have h0 : iblk m c 0 t (ix2 (j 0 : Fin 512) k) = tokensV m c (ix2 ((((cfg0.win 2).blk t).view.emb j) 0 : Fin 16384) k) := by
    show V m c main_v32 (((cfg0.win 0).blk t).view.emb (ix2 (j 0 : Fin 512) k)) = _
    refine congrArg (V m c main_v32) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 2048 + 1 * k.val = k.val; omega
  have h1 : iblk m c 1 t (ix2 k (j 1 : Fin 2048)) = weightsV m c (ix2 k ((((cfg0.win 2).blk t).view.emb j) 1 : Fin 2048)) := by
    show V m c main_v31 (((cfg0.win 1).blk t).view.emb (ix2 k (j 1 : Fin 2048))) = _
    refine congrArg (V m c main_v31) (funext fun a => Fin.ext ?_)
    match a with
    | ⟨0, _⟩ => show win0_1.index t (0 : Fin 2) * 2048 + 1 * k.val = k.val; omega
    | ⟨1, _⟩ => show win0_1.index t (1 : Fin 2) * 2048 + 1 * (j 1).val = win0_2.index t (1 : Fin 2) * 2048 + 1 * (j 1).val; omega
  rw [h0, h1]

/-- An index of the output array is in point `t`'s block iff each coordinate is in the block's range on its axis. -/
theorem mem_blk (t : Fin cfg0.N) (i : S16384x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v33).slice (win0_2.rect t)).set ↔ _
  rw [View.set_slice_whole, Rect.mem_set_unit]
  exact Iff.rfl

/-- THE COVER: row `r` of the output is in the block of the point whose block index is `r / 512`. -/
theorem cover (i : S16384x2048.Idx) : ∃ t : Fin cfg0.N, (cfg0.win 2).flush t = true ∧ i ∈ ((cfg0.win 2).blk t).view.set := by
  have hi0 : (i 0).val < 16384 := (i 0).isLt
  have hi1 : (i 1).val < 2048 := (i 1).isLt
  obtain ⟨t, ht⟩ := idx_onto ⟨(i 0).val / 512, by omega⟩
  have q0 : win0_2.index t (0 : Fin 2) = (i 0).val / 512 := ht
  obtain ⟨-, -, -, -, e4⟩ := idx_facts t
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- THE OUTPUT ARRAY after the region: the product of the two arrays the region found. -/
theorem final (c : Dev nD) : (dats m 0 c).arrAt 2 cfg0.N = outFlat (tokensV m c) (weightsV m c) :=
  (dats m 0 c).arrAt_eq_of_cover 2 (outFlat (tokensV m c) (weightsV m c)) (fun t _ => flushed_eq m c t) cover

/-! ## The host's reshape after the region, and the run -/

/-- The kernel's result as one function of the argument arrays. -/
def result (x0 : FVec Ideal S4x4096x2048 .f32) (x1 : IVec S2048x1024 32) (x2 : FVec Ideal S2048 .f32)
    (x3 : FVec Ideal S209715 .f32) (x4 x5 : IVec S209715 32) : FVec Ideal S4x4096x2048 .f32 :=
  shapeCast S4x4096x2048 (outFlat (xflat (F := Ideal) x0) (weightT (F := Ideal) x1 x2 x3 x4 x5)) shapeCasts_S16384x2048_S4x4096x2048

/-- What @main's result buffer holds after the host's last operation. -/
theorem result_eq (c : Dev nD) :
    (Pipeline.afterTail₀ cfgs (dats m) 0 (V0 m) [hostOps1] c main_v34 : S4x4096x2048.Idx → EReal)
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v34) = _
  after_results
  rw [(Pipeline.withArrays_arr spec0 launch0.win.arr_inj c _ _ 2).trans (final m c), tokensV_eq, weightsV_eq]
  rfl

/-- THE RUN: every weakly fair execution of the idealized kernel terminates with the result buffer at `result` of the
    argument arrays and the argument arrays unchanged. -/
theorem run : θ_run defs (onTc (τ := τ) (main (F := Ideal))) ⟨m, fun _ => 0, ρ⟩ fun r => ∀ c : Dev nD,
      r.2.mem ((c.tc : Thread nD τ).loc main_v34) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v34 (Pipeline.mem_restRefs_of main_v34 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.LibScatterSet.lean ====
/-
  STABLEHLO'S SCATTER WITH A `SET` BODY, read at an index, for the dimension numbers that writing a block, a row
  segment or a row into a matrix at ONE literal start index lowers to (`x.at[:, o:o+K].set(v)`, `x.at[r, o:o+K].set(v)`,
  `x.at[o:o+K, :].set(v)`, `x.at[r, :].set(v)`).

  `Host.scatter` folds over the update indices; with a body that returns the update, an operand element on which
  exactly the updates of one value land ends at that value, and one on which no update lands keeps the operand's
  (`scatter_set_hit`, `scatter_set_miss`). For one start index every update index lands on its own operand element, so
  the four shapes below read as: inside the written window the update's element, outside it the operand's.
-/
import Idealize.ShloMosaic.PureOps.Ideal
import Idealize.ShloMosaic.Lib.ValueIdx
import proofs.«411356_j833223655699_2_alg».proof.Proof.LibGatherScatter

noncomputable section

namespace Idealize.ShloMosaic.ScatterSet

open Idealize.ShloMosaic Idealize.ShloMosaic.ValueIdx Idealize.ShloMosaic.GatherScatter

/-! ## The fold, in general -/

section General
variable {s si u : Shape} {α : Type} {w : Nat}

/-- One step of the fold: update number `n` replaces the element it lands on, if any, by its value. -/
private def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter with a `set` body is the fold of that step over the update numbers. -/
private theorem scatter_eq_foldl (d : ScatterDims s si u) (x : s.Idx → α) (idx : IVec si w) (upd : u.Idx → α) :
    Host.scatter d (fun _ b => b) x idx upd = (List.finRange u.numel).foldl (setStep d idx upd) x := rfl

/-- A step whose update lands on `i` leaves the update's value at `i`. -/
private theorem setStep_of_some (d : ScatterDims s si u) (idx : IVec si w) (upd : u.Idx → α) (r : s.Idx → α)
    (n : Fin u.numel) (i : s.Idx) (h : d.resultIdx? (u.rowMajor.symm n) idx = some i) :
    setStep d idx upd r n i = upd (u.rowMajor.symm n) := by
  unfold setStep
  rw [h]
  exact if_pos rfl

/-- A step whose update does not land on `i` leaves the element at `i` as it was. -/
private theorem setStep_of_ne (d : ScatterDims s si u) (idx : IVec si w) (upd : u.Idx → α) (r : s.Idx → α)
    (n : Fin u.numel) (i : s.Idx) (h : d.resultIdx? (u.rowMajor.symm n) idx ≠ some i) :
    setStep d idx upd r n i = r i := by
  unfold setStep
  cases hres : d.resultIdx? (u.rowMajor.symm n) idx with
  | none => rfl
  | some i' =>
    have hne : i ≠ i' := fun e => h (by rw [hres, e])
    exact if_neg hne

/-- Folding over update numbers none of which lands on `i` leaves the element at `i` as it was. -/
private theorem foldl_miss (d : ScatterDims s si u) (idx : IVec si w) (upd : u.Idx → α) (i : s.Idx)
    (L : List (Fin u.numel)) (r : s.Idx → α)
    (hnone : ∀ n ∈ L, d.resultIdx? (u.rowMajor.symm n) idx ≠ some i) :
    L.foldl (setStep d idx upd) r i = r i := by
  induction L generalizing r with
  | nil => rfl
  | cons n L ih =>
    rw [List.foldl_cons, ih _ fun m hm => hnone m (List.mem_cons_of_mem _ hm),
      setStep_of_ne d idx upd r n i (hnone n List.mem_cons_self)]

/-- Folding over update numbers one of which lands on `i`, all those that do carrying the value `v`, leaves `v`
    at `i`: after the last of them no later step touches `i`. -/
private theorem foldl_hit (d : ScatterDims s si u) (idx : IVec si w) (upd : u.Idx → α) (i : s.Idx) (v : α)
    (L : List (Fin u.numel)) (r : s.Idx → α)
    (hex : ∃ n ∈ L, d.resultIdx? (u.rowMajor.symm n) idx = some i)
    (hall : ∀ n ∈ L, d.resultIdx? (u.rowMajor.symm n) idx = some i → upd (u.rowMajor.symm n) = v) :
    L.foldl (setStep d idx upd) r i = v := by
  induction L generalizing r with
  | nil => obtain ⟨n, hn, _⟩ := hex; cases hn
  | cons n L ih =>
    rw [List.foldl_cons]
    by_cases hL : ∃ m ∈ L, d.resultIdx? (u.rowMajor.symm m) idx = some i
    · exact ih _ hL fun m hm => hall m (List.mem_cons_of_mem _ hm)
    · have hnone : ∀ m ∈ L, d.resultIdx? (u.rowMajor.symm m) idx ≠ some i := fun m hm e => hL ⟨m, hm, e⟩
      have hn : d.resultIdx? (u.rowMajor.symm n) idx = some i := by
        obtain ⟨m, hm, e⟩ := hex
        rcases List.mem_cons.mp hm with rfl | hm'
        · exact e
        · exact absurd e (hnone m hm')
      rw [foldl_miss d idx upd i L _ hnone, setStep_of_some d idx upd r n i hn]
      exact hall n List.mem_cons_self hn

/-- HIT: if update index `j` lands on `i` and every update index landing on `i` carries `j`'s value, the result at
    `i` is that value. -/
theorem scatter_set_hit (d : ScatterDims s si u) (x : s.Idx → α) (idx : IVec si w) (upd : u.Idx → α) (i : s.Idx)
    (j : u.Idx) (hj : d.resultIdx? j idx = some i)
    (hall : ∀ j', d.resultIdx? j' idx = some i → upd j' = upd j) :
    Host.scatter d (fun _ b => b) x idx upd i = upd j := by
  rw [scatter_eq_foldl]
  refine foldl_hit d idx upd i (upd j) _ x ⟨u.rowMajor j, List.mem_finRange _, ?_⟩ fun n _ hn => hall _ hn
  rw [Equiv.symm_apply_apply]
  exact hj

/-- MISS: if no update index lands on `i`, the result at `i` is the operand's element. -/
theorem scatter_set_miss (d : ScatterDims s si u) (x : s.Idx → α) (idx : IVec si w) (upd : u.Idx → α) (i : s.Idx)
    (hnone : ∀ j, d.resultIdx? j idx ≠ some i) :
    Host.scatter d (fun _ b => b) x idx upd i = x i := by
  rw [scatter_eq_foldl]
  exact foldl_miss d idx upd i _ x fun n _ => hnone _

end General

/-! ## A block of columns: `x.at[:, o:o+K].set(v)`

Operand `[R, C]`, scatter indices `[1]` (the start column), updates `[R, K]`: update_window_dims `[0, 1]`,
inserted_window_dims `[]`, scatter_dims_to_operand_dims `[1]`, index_vector_dim 0. -/

abbrev colBlockDims (R C K : Nat) (wf : ScatterDims.WF ⟨2, ![R, C]⟩ ⟨1, ![1]⟩ ⟨2, ![R, K]⟩ [0, 1] [] [1] 0) :
    ScatterDims ⟨2, ![R, C]⟩ ⟨1, ![1]⟩ ⟨2, ![R, K]⟩ where
  updateWindowDims := [0, 1]
  insertedWindowDims := []
  scatterDimsToOperandDims := [1]
  indexVectorDim := 0
  wf := wf

section ColBlock
variable {R C K w : Nat} (wf : ScatterDims.WF ⟨2, ![R, C]⟩ ⟨1, ![1]⟩ ⟨2, ![R, K]⟩ [0, 1] [] [1] 0)

/-- The scatter index names no row: on the operand's row axis the window starts at `0`. -/
private theorem colBlock_start0 (idx : IVec ⟨1, ![1]⟩ w) (j : (⟨2, ![R, K]⟩ : Shape).Idx) :
    (colBlockDims R C K wf).start j idx 0 = 0 := by
  unfold ScatterDims.start
  rw [dif_neg (by decide : (0 : Fin 2) ∉ ([1] : List (Fin 2)))]

/-- On the operand's column axis the window starts at the scatter index, read signed. -/
private theorem colBlock_start1 (idx : IVec ⟨1, ![1]⟩ w) (j : (⟨2, ![R, K]⟩ : Shape).Idx) :
    (colBlockDims R C K wf).start j idx 1 = (idx (ix1 0)).toInt := by
  have hmem : (1 : Fin 2) ∈ (colBlockDims R C K wf).scatterDimsToOperandDims := List.mem_singleton.mpr rfl
  have hsi : (colBlockDims R C K wf).siIdx j ⟨List.idxOf (1 : Fin 2) (colBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The window coordinate on the operand's row axis is the update's row. -/
private theorem colBlock_window0 (a : Fin R) (b : Fin K) : (colBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem colBlock_window1 (a : Fin R) (b : Fin K) : (colBlockDims R C K wf).window (ix2 a b) 1 = b.val := by
  unfold ScatterDims.window
  rw [dif_pos (mem_kept (by decide : (1 : Fin 2) ∉ ([] : List (Fin 2))))]
  rfl

/-- Update `(a, b)` lands on element `(r, c)` exactly when `a` is `r` and the start column plus `b` is `c`. -/
private theorem colBlock_resultIdx (idx : IVec ⟨1, ![1]⟩ w) (o : Nat) (ho : (idx (ix1 0)).toInt = (o : Int))
    (a : Fin R) (b : Fin K) (r : Fin R) (c : Fin C) :
    (colBlockDims R C K wf).resultIdx? (ix2 a b) idx = some (ix2 r c) ↔ (a = r ∧ o + b.val = c.val) := by
  rw [resultIdx?_eq_some_iff]
  constructor
  · intro H
    have h0 := H 0
    have h1 := H 1
    rw [colBlock_start0, colBlock_window0, zero_add] at h0
    rw [colBlock_start1, colBlock_window1, ho] at h1
    have h0' : (a.val : Int) = (r.val : Int) := h0
    have h1' : (o : Int) + (b.val : Int) = (c.val : Int) := h1
    exact ⟨Fin.ext (by omega), by omega⟩
  · rintro ⟨rfl, H⟩ e
    match e with
    | ⟨0, _⟩ =>
      show (colBlockDims R C K wf).start (ix2 a b) idx 0 + ((colBlockDims R C K wf).window (ix2 a b) 0 : Int) = (a.val : Int)
      rw [colBlock_start0, colBlock_window0, zero_add]
    | ⟨1, _⟩ =>
      show (colBlockDims R C K wf).start (ix2 a b) idx 1 + ((colBlockDims R C K wf).window (ix2 a b) 1 : Int) = (c.val : Int)
      rw [colBlock_start1, colBlock_window1, ho]
      omega

end ColBlock

/-- Columns `o … o+K−1` hold the update, the others the operand. -/
theorem colBlockSet_apply {α : Type} {R C K w : Nat} (wf : ScatterDims.WF ⟨2, ![R, C]⟩ ⟨1, ![1]⟩ ⟨2, ![R, K]⟩ [0, 1] [] [1] 0)
    (x : (⟨2, ![R, C]⟩ : Shape).Idx → α) (idx : IVec ⟨1, ![1]⟩ w) (upd : (⟨2, ![R, K]⟩ : Shape).Idx → α)
    (o : Nat) (ho : (idx (ix1 0)).toInt = (o : Int)) (r : Fin R) (c : Fin C) :
    Host.scatter (colBlockDims R C K wf) (fun _ b => b) x idx upd (ix2 r c)
      = if h : o ≤ c.val ∧ c.val < o + K then upd (ix2 r ⟨c.val - o, by omega⟩) else x (ix2 r c) := by
  by_cases h : o ≤ c.val ∧ c.val < o + K
  · rw [dif_pos h]
    refine scatter_set_hit _ x idx upd _ (ix2 r ⟨c.val - o, by omega⟩) ?_ ?_
    · exact (colBlock_resultIdx wf idx o ho _ _ _ _).mpr ⟨rfl, by show o + (c.val - o) = c.val; omega⟩
    · intro j' hj'
      obtain ⟨a, b, rfl⟩ : ∃ (a : Fin R) (b : Fin K), j' = ix2 a b := ⟨j' 0, j' 1, eq_ix2 j'⟩
      obtain ⟨rfl, hb⟩ := (colBlock_resultIdx wf idx o ho _ _ _ _).mp hj'
      have hbe : b = ⟨c.val - o, by omega⟩ := Fin.ext (by show b.val = c.val - o; omega)
      rw [hbe]
  · rw [dif_neg h]
    refine scatter_set_miss _ x idx upd _ fun j' hj' => h ?_
    obtain ⟨a, b, rfl⟩ : ∃ (a : Fin R) (b : Fin K), j' = ix2 a b := ⟨j' 0, j' 1, eq_ix2 j'⟩
    obtain ⟨_, hb⟩ := (colBlock_resultIdx wf idx o ho _ _ _ _).mp hj'
    have := b.isLt
    omega

/-! ## A block of rows: `x.at[o:o+K, :].set(v)`

Operand `[R, C]`, scatter indices `[1]` (the start row), updates `[K, C]`: update_window_dims `[0, 1]`,
inserted_window_dims `[]`, scatter_dims_to_operand_dims `[0]`, index_vector_dim 0. -/

abbrev rowBlockDims (R C K : Nat) (wf : ScatterDims.WF ⟨2, ![R, C]⟩ ⟨1, ![1]⟩ ⟨2, ![K, C]⟩ [0, 1] [] [0] 0) :
    ScatterDims ⟨2, ![R, C]⟩ ⟨1, ![1]⟩ ⟨2, ![K, C]⟩ where
  updateWindowDims := [0, 1]
  insertedWindowDims := []
  scatterDimsToOperandDims := [0]
  indexVectorDim := 0
  wf := wf

section RowBlock
variable {R C K w : Nat} (wf : ScatterDims.WF ⟨2, ![R, C]⟩ ⟨1, ![1]⟩ ⟨2, ![K, C]⟩ [0, 1] [] [0] 0)

/-- On the operand's row axis the window starts at the scatter index, read signed. -/
private theorem rowBlock_start0 (idx : IVec ⟨1, ![1]⟩ w) (j : (⟨2, ![K, C]⟩ : Shape).Idx) :
    (rowBlockDims R C K wf).start j idx 0 = (idx (ix1 0)).toInt := by
  have hmem : (0 : Fin 2) ∈ (rowBlockDims R C K wf).scatterDimsToOperandDims := List.mem_singleton.mpr rfl
  have hsi : (rowBlockDims R C K wf).siIdx j ⟨List.idxOf (0 : Fin 2) (rowBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem rowBlock_start1 (idx : IVec ⟨1, ![1]⟩ w) (j : (⟨2, ![K, C]⟩ : Shape).Idx) :
    (rowBlockDims R C K wf).start j idx 1 = 0 := by
  unfold ScatterDims.start
  rw [dif_neg (by decide : (1 : Fin 2) ∉ ([0] : List (Fin 2)))]

/-- The window coordinate on the operand's row axis is the update's row. -/
private theorem rowBlock_window0 (a : Fin K) (b : Fin C) : (rowBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem rowBlock_window1 (a : Fin K) (b : Fin C) : (rowBlockDims R C K wf).window (ix2 a b) 1 = b.val := by
  unfold ScatterDims.window
  rw [dif_pos (mem_kept (by decide : (1 : Fin 2) ∉ ([] : List (Fin 2))))]
  rfl

/-- Update `(a, b)` lands on element `(r, c)` exactly when the start row plus `a` is `r` and `b` is `c`. -/
private theorem rowBlock_resultIdx (idx : IVec ⟨1, ![1]⟩ w) (o : Nat) (ho : (idx (ix1 0)).toInt = (o : Int))
    (a : Fin K) (b : Fin C) (r : Fin R) (c : Fin C) :
    (rowBlockDims R C K wf).resultIdx? (ix2 a b) idx = some (ix2 r c) ↔ (o + a.val = r.val ∧ b = c) := by
  rw [resultIdx?_eq_some_iff]
  constructor
  · intro H
    have h0 := H 0
    have h1 := H 1
    rw [rowBlock_start0, rowBlock_window0, ho] at h0
    rw [rowBlock_start1, rowBlock_window1, zero_add] at h1
    have h0' : (o : Int) + (a.val : Int) = (r.val : Int) := h0
    have h1' : (b.val : Int) = (c.val : Int) := h1
    exact ⟨by omega, Fin.ext (by omega)⟩
  · rintro ⟨H, rfl⟩ e
    match e with
    | ⟨0, _⟩ =>
      show (rowBlockDims R C K wf).start (ix2 a b) idx 0 + ((rowBlockDims R C K wf).window (ix2 a b) 0 : Int) = (r.val : Int)
      rw [rowBlock_start0, rowBlock_window0, ho]
      omega
    | ⟨1, _⟩ =>
      show (rowBlockDims R C K wf).start (ix2 a b) idx 1 + ((rowBlockDims R C K wf).window (ix2 a b) 1 : Int) = (b.val : Int)
      rw [rowBlock_start1, rowBlock_window1, zero_add]

end RowBlock

/-- Rows `o … o+K−1` hold the update, the others the operand. -/
theorem rowBlockSet_apply {α : Type} {R C K w : Nat} (wf : ScatterDims.WF ⟨2, ![R, C]⟩ ⟨1, ![1]⟩ ⟨2, ![K, C]⟩ [0, 1] [] [0] 0)
    (x : (⟨2, ![R, C]⟩ : Shape).Idx → α) (idx : IVec ⟨1, ![1]⟩ w) (upd : (⟨2, ![K, C]⟩ : Shape).Idx → α)
    (o : Nat) (ho : (idx (ix1 0)).toInt = (o : Int)) (r : Fin R) (c : Fin C) :
    Host.scatter (rowBlockDims R C K wf) (fun _ b => b) x idx upd (ix2 r c)
      = if h : o ≤ r.val ∧ r.val < o + K then upd (ix2 ⟨r.val - o, by omega⟩ c) else x (ix2 r c) := by
  by_cases h : o ≤ r.val ∧ r.val < o + K
  · rw [dif_pos h]
    refine scatter_set_hit _ x idx upd _ (ix2 ⟨r.val - o, by omega⟩ c) ?_ ?_
    · exact (rowBlock_resultIdx wf idx o ho _ _ _ _).mpr ⟨by show o + (r.val - o) = r.val; omega, rfl⟩
    · intro j' hj'
      obtain ⟨a, b, rfl⟩ : ∃ (a : Fin K) (b : Fin C), j' = ix2 a b := ⟨j' 0, j' 1, eq_ix2 j'⟩
      obtain ⟨ha, rfl⟩ := (rowBlock_resultIdx wf idx o ho _ _ _ _).mp hj'
      have hae : a = ⟨r.val - o, by omega⟩ := Fin.ext (by show a.val = r.val - o; omega)
      rw [hae]
  · rw [dif_neg h]
    refine scatter_set_miss _ x idx upd _ fun j' hj' => h ?_
    obtain ⟨a, b, rfl⟩ : ∃ (a : Fin K) (b : Fin C), j' = ix2 a b := ⟨j' 0, j' 1, eq_ix2 j'⟩
    obtain ⟨ha, _⟩ := (rowBlock_resultIdx wf idx o ho _ _ _ _).mp hj'
    have := a.isLt
    omega

/-! ## One whole row: `x.at[o, :].set(v)`

Operand `[R, C]`, scatter indices `[1]` (the row), updates `[C]`: update_window_dims `[0]`, inserted_window_dims
`[0]`, scatter_dims_to_operand_dims `[0]`, index_vector_dim 0. -/

abbrev oneRowDims (R C : Nat) (wf : ScatterDims.WF ⟨2, ![R, C]⟩ ⟨1, ![1]⟩ ⟨1, ![C]⟩ [0] [0] [0] 0) :
    ScatterDims ⟨2, ![R, C]⟩ ⟨1, ![1]⟩ ⟨1, ![C]⟩ where
  updateWindowDims := [0]
  insertedWindowDims := [0]
  scatterDimsToOperandDims := [0]
  indexVectorDim := 0
  wf := wf

section OneRow
variable {R C w : Nat} (wf : ScatterDims.WF ⟨2, ![R, C]⟩ ⟨1, ![1]⟩ ⟨1, ![C]⟩ [0] [0] [0] 0)

/-- On the operand's row axis the window starts at the scatter index, read signed. -/
private theorem oneRow_start0 (idx : IVec ⟨1, ![1]⟩ w) (j : (⟨1, ![C]⟩ : Shape).Idx) :
    (oneRowDims R C wf).start j idx 0 = (idx (ix1 0)).toInt := by
  have hmem : (0 : Fin 2) ∈ (oneRowDims R C wf).scatterDimsToOperandDims := List.mem_singleton.mpr rfl
  have hsi : (oneRowDims R C wf).siIdx j ⟨List.idxOf (0 : Fin 2) (oneRowDims R C wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem oneRow_start1 (idx : IVec ⟨1, ![1]⟩ w) (j : (⟨1, ![C]⟩ : Shape).Idx) :
    (oneRowDims R C wf).start j idx 1 = 0 := by
  unfold ScatterDims.start
  rw [dif_neg (by decide : (1 : Fin 2) ∉ ([0] : List (Fin 2)))]

/-- The row axis is inserted: the window coordinate on it is `0`. -/
private theorem oneRow_window0 (j : (⟨1, ![C]⟩ : Shape).Idx) : (oneRowDims R C wf).window j 0 = 0 := by
  unfold ScatterDims.window
  rw [dif_neg (not_mem_kept (List.mem_singleton.mpr rfl))]

/-- The window coordinate on the operand's column axis is the update's coordinate. -/
private theorem oneRow_window1 (b : Fin C) : (oneRowDims R C wf).window (ix1 b) 1 = b.val := by
  unfold ScatterDims.window
  rw [dif_pos (mem_kept (by decide : (1 : Fin 2) ∉ ([0] : List (Fin 2))))]
  rfl

/-- Update `b` lands on element `(r, c)` exactly when the scatter index is `r` and `b` is `c`. -/
private theorem oneRow_resultIdx (idx : IVec ⟨1, ![1]⟩ w) (o : Nat) (ho : (idx (ix1 0)).toInt = (o : Int))
    (b : Fin C) (r : Fin R) (c : Fin C) :
    (oneRowDims R C wf).resultIdx? (ix1 b) idx = some (ix2 r c) ↔ (r.val = o ∧ b = c) := by
  rw [resultIdx?_eq_some_iff]
  constructor
  · intro H
    have h0 := H 0
    have h1 := H 1
    rw [oneRow_start0, oneRow_window0, ho, Nat.cast_zero, add_zero] at h0
    rw [oneRow_start1, oneRow_window1, zero_add] at h1
    have h0' : (o : Int) = (r.val : Int) := h0
    have h1' : (b.val : Int) = (c.val : Int) := h1
    exact ⟨by omega, Fin.ext (by omega)⟩
  · rintro ⟨H, rfl⟩ e
    match e with
    | ⟨0, _⟩ =>
      show (oneRowDims R C wf).start (ix1 b) idx 0 + ((oneRowDims R C wf).window (ix1 b) 0 : Int) = (r.val : Int)
      rw [oneRow_start0, oneRow_window0, ho, Nat.cast_zero, add_zero]
      omega
    | ⟨1, _⟩ =>
      show (oneRowDims R C wf).start (ix1 b) idx 1 + ((oneRowDims R C wf).window (ix1 b) 1 : Int) = (b.val : Int)
      rw [oneRow_start1, oneRow_window1, zero_add]

end OneRow

/-- Row `o` holds the update, the others the operand. -/
theorem oneRowSet_apply {α : Type} {R C w : Nat} (wf : ScatterDims.WF ⟨2, ![R, C]⟩ ⟨1, ![1]⟩ ⟨1, ![C]⟩ [0] [0] [0] 0)
    (x : (⟨2, ![R, C]⟩ : Shape).Idx → α) (idx : IVec ⟨1, ![1]⟩ w) (upd : (⟨1, ![C]⟩ : Shape).Idx → α)
    (o : Nat) (ho : (idx (ix1 0)).toInt = (o : Int)) (r : Fin R) (c : Fin C) :
    Host.scatter (oneRowDims R C wf) (fun _ b => b) x idx upd (ix2 r c)
      = if r.val = o then upd (ix1 c) else x (ix2 r c) := by
  by_cases h : r.val = o
  · rw [if_pos h]
    refine scatter_set_hit _ x idx upd _ (ix1 c) ?_ ?_
    · exact (oneRow_resultIdx wf idx o ho _ _ _).mpr ⟨h, rfl⟩
    · intro j' hj'
      obtain ⟨b, rfl⟩ : ∃ b : Fin C, j' = ix1 b := ⟨j' 0, eq_ix1 j'⟩
      obtain ⟨_, rfl⟩ := (oneRow_resultIdx wf idx o ho _ _ _).mp hj'
      rfl
  · rw [if_neg h]
    refine scatter_set_miss _ x idx upd _ fun j' hj' => h ?_
    obtain ⟨b, rfl⟩ : ∃ b : Fin C, j' = ix1 b := ⟨j' 0, eq_ix1 j'⟩
    exact ((oneRow_resultIdx wf idx o ho _ _ _).mp hj').1

/-! ## A segment of one row: `x.at[r₀, o:o+K].set(v)`

Operand `[R, C]`, scatter indices `[2]` (the row and the start column), updates `[K]`: update_window_dims `[0]`,
inserted_window_dims `[0]`, scatter_dims_to_operand_dims `[0, 1]`, index_vector_dim 0. -/

abbrev rowSegDims (R C K : Nat) (wf : ScatterDims.WF ⟨2, ![R, C]⟩ ⟨1, ![2]⟩ ⟨1, ![K]⟩ [0] [0] [0, 1] 0) :
    ScatterDims ⟨2, ![R, C]⟩ ⟨1, ![2]⟩ ⟨1, ![K]⟩ where
  updateWindowDims := [0]
  insertedWindowDims := [0]
  scatterDimsToOperandDims := [0, 1]
  indexVectorDim := 0
  wf := wf

section RowSeg
variable {R C K w : Nat} (wf : ScatterDims.WF ⟨2, ![R, C]⟩ ⟨1, ![2]⟩ ⟨1, ![K]⟩ [0] [0] [0, 1] 0)

/-- On the operand's row axis the window starts at the first scatter index, read signed. -/
private theorem rowSeg_start0 (idx : IVec ⟨1, ![2]⟩ w) (j : (⟨1, ![K]⟩ : Shape).Idx) :
    (rowSegDims R C K wf).start j idx 0 = (idx (ix1 0)).toInt := by
  have hmem : (0 : Fin 2) ∈ (rowSegDims R C K wf).scatterDimsToOperandDims :=
    (by decide : (0 : Fin 2) ∈ ([0, 1] : List (Fin 2)))
  have hsi : (rowSegDims R C K wf).siIdx j ⟨List.idxOf (0 : Fin 2) (rowSegDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- On the operand's column axis the window starts at the second scatter index, read signed. -/
private theorem rowSeg_start1 (idx : IVec ⟨1, ![2]⟩ w) (j : (⟨1, ![K]⟩ : Shape).Idx) :
    (rowSegDims R C K wf).start j idx 1 = (idx (ix1 1)).toInt := by
  have hmem : (1 : Fin 2) ∈ (rowSegDims R C K wf).scatterDimsToOperandDims :=
    (by decide : (1 : Fin 2) ∈ ([0, 1] : List (Fin 2)))
  have hsi : (rowSegDims R C K wf).siIdx j ⟨List.idxOf (1 : Fin 2) (rowSegDims R C K wf).scatterDimsToOperandDims,
      List.idxOf_lt_length_iff.2 hmem⟩ = ix1 1 := by
    funext b; refine Fin.ext ?_
    match b with
    | ⟨0, _⟩ => rfl
  unfold ScatterDims.start
  rw [dif_pos hmem, hsi]

/-- The row axis is inserted: the window coordinate on it is `0`. -/
private theorem rowSeg_window0 (j : (⟨1, ![K]⟩ : Shape).Idx) : (rowSegDims R C K wf).window j 0 = 0 := by
  unfold ScatterDims.window
  rw [dif_neg (not_mem_kept (List.mem_singleton.mpr rfl))]

/-- The window coordinate on the operand's column axis is the update's coordinate. -/
private theorem rowSeg_window1 (b : Fin K) : (rowSegDims R C K wf).window (ix1 b) 1 = b.val := by
  unfold ScatterDims.window
  rw [dif_pos (mem_kept (by decide : (1 : Fin 2) ∉ ([0] : List (Fin 2))))]
  rfl

/-- Update `b` lands on element `(r, c)` exactly when the first scatter index is `r` and the second plus `b` is
    `c`. -/
private theorem rowSeg_resultIdx (idx : IVec ⟨1, ![2]⟩ w) (r₀ o : Nat) (hr : (idx (ix1 0)).toInt = (r₀ : Int))
    (ho : (idx (ix1 1)).toInt = (o : Int)) (b : Fin K) (r : Fin R) (c : Fin C) :
    (rowSegDims R C K wf).resultIdx? (ix1 b) idx = some (ix2 r c) ↔ (r.val = r₀ ∧ o + b.val = c.val) := by
  rw [resultIdx?_eq_some_iff]
  constructor
  · intro H
    have h0 := H 0
    have h1 := H 1
    rw [rowSeg_start0, rowSeg_window0, hr, Nat.cast_zero, add_zero] at h0
    rw [rowSeg_start1, rowSeg_window1, ho] at h1
    have h0' : (r₀ : Int) = (r.val : Int) := h0
    have h1' : (o : Int) + (b.val : Int) = (c.val : Int) := h1
    exact ⟨by omega, by omega⟩
  · rintro ⟨H0, H1⟩ e
    match e with
    | ⟨0, _⟩ =>
      show (rowSegDims R C K wf).start (ix1 b) idx 0 + ((rowSegDims R C K wf).window (ix1 b) 0 : Int) = (r.val : Int)
      rw [rowSeg_start0, rowSeg_window0, hr, Nat.cast_zero, add_zero]
      omega
    | ⟨1, _⟩ =>
      show (rowSegDims R C K wf).start (ix1 b) idx 1 + ((rowSegDims R C K wf).window (ix1 b) 1 : Int) = (c.val : Int)
      rw [rowSeg_start1, rowSeg_window1, ho]
      omega

end RowSeg

/-- Columns `o … o+K−1` of row `r₀` hold the update, every other element the operand. -/
theorem rowSegSet_apply {α : Type} {R C K w : Nat} (wf : ScatterDims.WF ⟨2, ![R, C]⟩ ⟨1, ![2]⟩ ⟨1, ![K]⟩ [0] [0] [0, 1] 0)
    (x : (⟨2, ![R, C]⟩ : Shape).Idx → α) (idx : IVec ⟨1, ![2]⟩ w) (upd : (⟨1, ![K]⟩ : Shape).Idx → α)
    (r₀ o : Nat) (hr : (idx (ix1 0)).toInt = (r₀ : Int)) (ho : (idx (ix1 1)).toInt = (o : Int)) (r : Fin R) (c : Fin C) :
    Host.scatter (rowSegDims R C K wf) (fun _ b => b) x idx upd (ix2 r c)
      = if h : r.val = r₀ ∧ o ≤ c.val ∧ c.val < o + K then upd (ix1 ⟨c.val - o, by omega⟩) else x (ix2 r c) := by
  by_cases h : r.val = r₀ ∧ o ≤ c.val ∧ c.val < o + K
  · rw [dif_pos h]
    refine scatter_set_hit _ x idx upd _ (ix1 ⟨c.val - o, by omega⟩) ?_ ?_
    · exact (rowSeg_resultIdx wf idx r₀ o hr ho _ _ _).mpr ⟨h.1, by show o + (c.val - o) = c.val; omega⟩
    · intro j' hj'
      obtain ⟨b, rfl⟩ : ∃ b : Fin K, j' = ix1 b := ⟨j' 0, eq_ix1 j'⟩
      obtain ⟨_, hb⟩ := (rowSeg_resultIdx wf idx r₀ o hr ho _ _ _).mp hj'
      have hbe : b = ⟨c.val - o, by omega⟩ := Fin.ext (by show b.val = c.val - o; omega)
      rw [hbe]
  · rw [dif_neg h]
    refine scatter_set_miss _ x idx upd _ fun j' hj' => h ?_
    obtain ⟨b, rfl⟩ : ∃ b : Fin K, j' = ix1 b := ⟨j' 0, eq_ix1 j'⟩
    obtain ⟨hr', hb⟩ := (rowSeg_resultIdx wf idx r₀ o hr ho _ _ _).mp hj'
    have := b.isLt
    exact ⟨hr', by omega, by omega⟩

end Idealize.ShloMosaic.ScatterSet

end
-- ==== Proof.LibPairIndex.lean ====
/-
  A MATRIX READ AND WRITTEN AT ONE INDEX PAIR PER ROW, read at an index.

  `x[r, c]` of a matrix `x : [N, N']` at integer arrays `r, c : [M]` is a `stablehlo.gather` whose start indices are
  the pairs `[M, 2]` (offset_dims `[]`, collapsed_slice_dims `[0, 1]`, start_index_map `[0, 1]`, index_vector_dim 1,
  slice_sizes `[1, 1]`), and `x.at[r, c].set(v)` is a `stablehlo.scatter` over the same pairs whose body returns the
  update. The pairs themselves are a `concatenate` along axis 1 of the two index vectors, each broadcast to a column.

  * `pairGather_apply`: the gather's element `j` is the operand at the pair `(idx[j, 0], idx[j, 1])`, each component
    read SIGNED and CLAMPED into the operand; `pairGather_apply_inRange` is the same when the pair is an operand index.
  * `pairSet_apply`: when pair `j`'s row component is `j` itself (`r = arange`), every update lands in its own row, so
    the result at `(r, c)` is update `r` when pair `r`'s column component is `c`, and the operand's element otherwise.
  * `pairs_col0` / `pairs_col1` / `column_apply`: the pairs array read at `(j, 0)` and `(j, 1)`.
  * `wrap_of_nonneg`: jnp's normalisation of a negative index (`select (i < 0) (i + n) i`) leaves a non-negative one.
-/
import Idealize.ShloMosaic.PureOps.Ideal
import Idealize.ShloMosaic.Lib.ValueIdx
import Idealize.ShloMosaic.Lib.Pipeline.Value
import proofs.«411356_j833223655699_2_alg».proof.Proof.LibGatherScatter
import proofs.«411356_j833223655699_2_alg».proof.Proof.LibScatterSet

noncomputable section

namespace Idealize.ShloMosaic.PairIndex

open Idealize.ShloMosaic Idealize.ShloMosaic.ValueIdx Idealize.ShloMosaic.GatherScatter Idealize.ShloMosaic.ScatterSet

/-! ## The gather at index pairs -/

section PairGather
variable {α : Type}

/-- The dimension numbers of `x[r, c]` for an operand `[N, N']`, start indices `[M, 2]` and result `[M]`; their
    conditions `wf` are decided on a program's literal shapes. -/
abbrev pairGatherDims (N N' M : Nat)
    (wf : GatherDims.WF ⟨2, ![N, N']⟩ ⟨2, ![M, 2]⟩ ⟨1, ![M]⟩ [] [0, 1] [] [0, 1] [] 1 ![1, 1]) :
    GatherDims ⟨2, ![N, N']⟩ ⟨2, ![M, 2]⟩ ⟨1, ![M]⟩ where
  offsetDims := []
  collapsedSliceDims := [0, 1]
  operandBatchingDims := []
  startIndicesBatchingDims := []
  startIndexMap := [0, 1]
  indexVectorDim := 1
  sliceSizes := ![1, 1]
  wf := wf

variable {N N' M w : Nat} (wf : GatherDims.WF ⟨2, ![N, N']⟩ ⟨2, ![M, 2]⟩ ⟨1, ![M]⟩ [] [0, 1] [] [0, 1] [] 1 ![1, 1])

/-- Result element `j`'s slice starts, on the operand's row axis, at `idx[j, 0]` read signed and clamped into
    `[0, N − 1]`. -/
theorem pairGather_start0 (idx : IVec ⟨2, ![M, 2]⟩ w) (j : Fin M) :
    (pairGatherDims N N' M wf).start (ix1 j) idx 0 = min (idx (ix2 j 0)).toInt.toNat (N - 1) := by
  have hmem : (0 : Fin 2) ∈ (pairGatherDims N N' M wf).startIndexMap :=
    (by decide : (0 : Fin 2) ∈ ([0, 1] : List (Fin 2)))
  have hsi : (pairGatherDims N N' M wf).siIdx (ix1 j) ⟨List.idxOf (0 : Fin 2) (pairGatherDims N N' M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- … and on the column axis at `idx[j, 1]` read signed and clamped into `[0, N' − 1]`. -/
theorem pairGather_start1 (idx : IVec ⟨2, ![M, 2]⟩ w) (j : Fin M) :
    (pairGatherDims N N' M wf).start (ix1 j) idx 1 = min (idx (ix2 j 1)).toInt.toNat (N' - 1) := by
  have hmem : (1 : Fin 2) ∈ (pairGatherDims N N' M wf).startIndexMap :=
    (by decide : (1 : Fin 2) ∈ ([0, 1] : List (Fin 2)))
  have hsi : (pairGatherDims N N' M wf).siIdx (ix1 j) ⟨List.idxOf (1 : Fin 2) (pairGatherDims N N' M wf).startIndexMap,
      List.idxOf_lt_length_iff.2 hmem⟩ = ix2 j 1 := by
    funext b; refine Fin.ext ?_
    match b with
    | ⟨0, _⟩ => rfl
    | ⟨1, _⟩ => rfl
  unfold GatherDims.start
  rw [dif_pos hmem, hsi]
  rfl

/-- THE GATHER READ AT `j`: the operand at the pair `(idx[j, 0], idx[j, 1])`, each component read signed and
    clamped into the operand. -/
theorem pairGather_apply (hN : 0 < N) (hN' : 0 < N')
    (wf : GatherDims.WF ⟨2, ![N, N']⟩ ⟨2, ![M, 2]⟩ ⟨1, ![M]⟩ [] [0, 1] [] [0, 1] [] 1 ![1, 1])
    (x : (⟨2, ![N, N']⟩ : Shape).Idx → α) (idx : IVec ⟨2, ![M, 2]⟩ w) (j : Fin M) :
    Host.gather (pairGatherDims N N' M wf) x idx (ix1 j)
      = x (ix2 ⟨min (idx (ix2 j 0)).toInt.toNat (N - 1), by omega⟩
               ⟨min (idx (ix2 j 1)).toInt.toNat (N' - 1), by omega⟩) := by
  unfold Host.gather
  congr 1
  funext a
  refine Fin.ext ?_
  rw [operandIdx_val, batchCoord_of_nil _ rfl, Nat.add_zero]
  match a with
  | ⟨0, _⟩ =>
    show (pairGatherDims N N' M wf).start (ix1 j) idx 0 + (pairGatherDims N N' M wf).offCoord (ix1 j) 0 = _
    rw [pairGather_start0, offCoord_of_collapsed _ _ (by decide : (0 : Fin 2) ∈ ([0, 1] : List (Fin 2)))]
    rfl
  | ⟨1, _⟩ =>
    show (pairGatherDims N N' M wf).start (ix1 j) idx 1 + (pairGatherDims N N' M wf).offCoord (ix1 j) 1 = _
    rw [pairGather_start1, offCoord_of_collapsed _ _ (by decide : (1 : Fin 2) ∈ ([0, 1] : List (Fin 2)))]
    rfl

/-- The gather at `j` when its pair is the operand index `(r, c)`: the operand there. -/
theorem pairGather_apply_inRange (wf : GatherDims.WF ⟨2, ![N, N']⟩ ⟨2, ![M, 2]⟩ ⟨1, ![M]⟩ [] [0, 1] [] [0, 1] [] 1 ![1, 1])
    (x : (⟨2, ![N, N']⟩ : Shape).Idx → α) (idx : IVec ⟨2, ![M, 2]⟩ w) (j : Fin M) (r : Fin N) (c : Fin N')
    (h0 : (idx (ix2 j 0)).toInt = (r.val : Int)) (h1 : (idx (ix2 j 1)).toInt = (c.val : Int)) :
    Host.gather (pairGatherDims N N' M wf) x idx (ix1 j) = x (ix2 r c) := by
  have hr := r.isLt
  have hc := c.isLt
  rw [pairGather_apply (by omega) (by omega) wf x idx j]
  congr 1
  funext a
  refine Fin.ext ?_
  match a with
  | ⟨0, _⟩ =>
    show min (idx (ix2 j 0)).toInt.toNat (N - 1) = r.val
    rw [h0, Int.toNat_natCast]; omega
  | ⟨1, _⟩ =>
    show min (idx (ix2 j 1)).toInt.toNat (N' - 1) = c.val
    rw [h1, Int.toNat_natCast]; omega

end PairGather

/-! ## Scalars set into a matrix, one per row -/

section PairSet
variable {α : Type} {N N' w : Nat}

/-- SET AT ONE PAIR PER ROW, read at `(r, c)`: with pair `j`'s row component `j` itself, update `r` when pair `r`'s column
    component, read signed, is `c`; the operand's element otherwise (a column component outside the operand lands
    nowhere). -/
theorem pairSet_apply (wf : ScatterDims.WF ⟨2, ![N, N']⟩ ⟨2, ![N, 2]⟩ ⟨1, ![N]⟩ [] [0, 1] [0, 1] 1)
    (x : (⟨2, ![N, N']⟩ : Shape).Idx → α) (idx : IVec ⟨2, ![N, 2]⟩ w) (upd : (⟨1, ![N]⟩ : Shape).Idx → α)
    (hrow : ∀ j : Fin N, (idx (ix2 j 0)).toInt = (j.val : Int)) (r : Fin N) (c : Fin N') :
    Host.scatter (pairScatterDims N N' N wf) (fun _ b => b) x idx upd (ix2 r c)
      = if (idx (ix2 r 1)).toInt = (c.val : Int) then upd (ix1 r) else x (ix2 r c) := by
  by_cases h : (idx (ix2 r 1)).toInt = (c.val : Int)
  · rw [if_pos h]
    refine scatter_set_hit _ x idx upd _ (ix1 r) ((pairScatter_resultIdx wf idx r r c).mpr ⟨hrow r, h⟩) ?_
    intro j' hj'
    obtain ⟨j, rfl⟩ : ∃ j : Fin N, j' = ix1 j := ⟨j' 0, eq_ix1 j'⟩
    have h0 := ((pairScatter_resultIdx wf idx j r c).mp hj').1
    rw [hrow j] at h0
    have e : j = r := Fin.ext (by exact_mod_cast h0)
    rw [e]
  · rw [if_neg h]
    refine scatter_set_miss _ x idx upd _ fun j' hj' => h ?_
    obtain ⟨j, rfl⟩ : ∃ j : Fin N, j' = ix1 j := ⟨j' 0, eq_ix1 j'⟩
    obtain ⟨h0, h1⟩ := (pairScatter_resultIdx wf idx j r c).mp hj'
    rw [hrow j] at h0
    have e : j = r := Fin.ext (by exact_mod_cast h0)
    rw [← e]; exact h1

end PairSet

/-! ## The pairs array -/

section Pairs
variable {α : Type} {M : Nat}

/-- A vector broadcast to a column reads, at `(j, 0)`, the vector at `j`. -/
theorem column_apply (h : (⟨1, ![M]⟩ : Shape).BroadcastsInDim ⟨2, ![M, 1]⟩ ![0]) (v : (⟨1, ![M]⟩ : Shape).Idx → α)
    (j : Fin M) : broadcastInDim ⟨2, ![M, 1]⟩ ![0] h v (ix2 j 0) = v (ix1 j) := by
  simp only [broadcastInDim]
  congr 1
  funext a
  obtain rfl : a = 0 := Subsingleton.elim _ _
  apply Fin.ext
  have hj := j.isLt
  split
  · next h1 => change M = 1 at h1; show (0 : Nat) = j.val; omega
  · rfl

/-- Two columns laid side by side read, at `(j, 0)`, the first column. -/
theorem pairs_col0 (h : Shape.Concatenates [(⟨2, ![M, 1]⟩ : Shape), ⟨2, ![M, 1]⟩] ⟨2, ![M, 2]⟩ 1)
    (a b : (⟨2, ![M, 1]⟩ : Shape).Idx → α) (j : Fin M) :
    concatenate ⟨2, ![M, 2]⟩ 1 [⟨⟨2, ![M, 1]⟩, a⟩, ⟨⟨2, ![M, 1]⟩, b⟩] h (ix2 j 0) = a (ix2 j 0) :=
  concatenate_pair_apply_left (t := ⟨2, ![M, 2]⟩) (s₁ := ⟨2, ![M, 1]⟩) (s₂ := ⟨2, ![M, 1]⟩) (1 : Fin 2) a b h (ix2 j 0) rfl
      (ix2 j 0) fun d => by
    match d with
    | ⟨0, _⟩ => rfl
    | ⟨1, _⟩ => rfl

/-- … and, at `(j, 1)`, the second. -/
theorem pairs_col1 (h : Shape.Concatenates [(⟨2, ![M, 1]⟩ : Shape), ⟨2, ![M, 1]⟩] ⟨2, ![M, 2]⟩ 1)
    (a b : (⟨2, ![M, 1]⟩ : Shape).Idx → α) (j : Fin M) :
    concatenate ⟨2, ![M, 2]⟩ 1 [⟨⟨2, ![M, 1]⟩, a⟩, ⟨⟨2, ![M, 1]⟩, b⟩] h (ix2 j 1) = b (ix2 j 0) :=
  concatenate_pair_apply_right (t := ⟨2, ![M, 2]⟩) (s₁ := ⟨2, ![M, 1]⟩) (s₂ := ⟨2, ![M, 1]⟩) (1 : Fin 2) a b h (ix2 j 1) rfl rfl
    (ix2 j 0) (fun d hd => by
      match d with
      | ⟨0, _⟩ => rfl
      | ⟨1, _⟩ => exact absurd rfl hd) (by rfl)

end Pairs

/-! ## A non-negative index is not wrapped -/

/-- `select (i < 0) (i + n) i` at a word that is non-negative read signed is that word. -/
theorem wrap_of_nonneg (i n : BitVec 32) (h : 0 ≤ i.toInt) :
    Scalar.select (IntOp.cmpi .slt i 0#32) (IntOp.addi i n) i = i := by
  have : IntOp.cmpi .slt i 0#32 = 0#1 := by
    simp only [IntOp.cmpi]
    have : ¬ i.slt 0#32 := by
      simp only [BitVec.slt, BitVec.toInt_zero, decide_eq_true_eq, not_lt]; exact h
    simp [this]
  rw [this]
  exact select_zero _ _

end Idealize.ShloMosaic.PairIndex

end
-- ==== Proof.ScatterBridge.lean ====
/-
  The sparse residual, scattered two ways.

  The reference accumulates the values into a zero matrix `[2048, 2048]` at the index pairs `(rows[j], cols[j])`; the kernel
  accumulates them into a zero vector `[2048 · 2048]` at the single indices `rows[j] · 2048 + cols[j]` and then views the
  vector as the matrix. Both first wrap a negative index as jnp does (`i < 0 ↦ i + n`).

  Where every row and column index lies in `[0, 2048)`: no index is wrapped; `rows[j] · 2048 + cols[j]` is computed without
  overflow and lies in `[0, 2048 · 2048)`; and it is the row-major position `o · 2048 + k` of the matrix element `(o, k)`
  exactly when `rows[j] = o` and `cols[j] = k`. So element `(o, k)` of either result is the sum of the same values.
-/
import Idealize.ShloMosaic.PureOps.Ideal
import Idealize.ShloMosaic.Lib.ValueIdx
import Idealize.ShloMosaic.Lib.Pipeline.Value
import Idealize.ShloMosaic.Lib.StableHlo.Predicate
import proofs.«411356_j833223655699_2_alg».proof.Proof.LibGatherScatter
import proofs.«411356_j833223655699_2_alg».proof.Proof.LibPairIndex

noncomputable section

open scoped BigOperators

namespace Cert.ScatterBridge

open Idealize.ShloMosaic Idealize.ShloMosaic.ValueIdx Idealize.ShloMosaic.GatherScatter Idealize.ShloMosaic.PairIndex

/-! ## Words -/

/-- A word whose signed value is in `[0, 2048)` has that unsigned value. -/
theorem toNat_of_range (w : BitVec 32) (h0 : 0 ≤ w.toInt) (h1 : w.toInt < 2048) : w.toNat < 2048 := by
  have hw := w.isLt
  have e := BitVec.toInt_eq_toNat_cond w
  rcases Nat.lt_or_ge (2 * w.toNat) (2 ^ 32) with h | h
  · rw [if_pos h] at e; omega
  · rw [if_neg (Nat.not_lt.2 h)] at e; omega

/-- `r · 2048 + c` on words below 2048 does not overflow. -/
theorem lin_toNat (r c : BitVec 32) (hr : r.toNat < 2048) (hc : c.toNat < 2048) :
    (IntOp.addi (IntOp.muli r 2048#32) c).toNat = r.toNat * 2048 + c.toNat := by
  simp only [IntOp.addi, IntOp.muli, BitVec.toNat_add, BitVec.toNat_mul, BitVec.toNat_ofNat]
  omega

/-- THE FLAT INDEX of an in-range pair: `r · 2048 + c` is non-negative, so it is not wrapped, and its signed value is
    `r · 2048 + c` over the integers. -/
theorem flat_word (r c : BitVec 32) (hr0 : 0 ≤ r.toInt) (hr1 : r.toInt < 2048) (hc0 : 0 ≤ c.toInt) (hc1 : c.toInt < 2048) :
    (Scalar.select (IntOp.cmpi .slt (IntOp.addi (IntOp.muli r 2048#32) c) 0#32)
        (IntOp.addi (IntOp.addi (IntOp.muli r 2048#32) c) 4194304#32) (IntOp.addi (IntOp.muli r 2048#32) c)).toInt
      = r.toInt * 2048 + c.toInt := by
  have hr := toNat_of_range r hr0 hr1
  have hc := toNat_of_range c hc0 hc1
  have hl := lin_toNat r c hr hc
  have hli : (IntOp.addi (IntOp.muli r 2048#32) c).toInt = ((IntOp.addi (IntOp.muli r 2048#32) c).toNat : Int) :=
    StableHlo.Predicate.toInt_eq_toNat_of_lt (by rw [hl]; omega)
  rw [wrap_of_nonneg _ _ (by rw [hli]; exact Int.natCast_nonneg _), hli, hl,
    StableHlo.Predicate.toInt_eq_toNat_of_lt (a := r) (by omega), StableHlo.Predicate.toInt_eq_toNat_of_lt (a := c) (by omega)]
  simp only [Nat.cast_add, Nat.cast_mul, Nat.cast_ofNat]

/-! ## The two index arrays -/

section Indices
variable (hb : (⟨0, ![]⟩ : Shape).BroadcastsInDim ⟨1, ![209715]⟩ ![])
  (hcol : (⟨1, ![209715]⟩ : Shape).BroadcastsInDim ⟨2, ![209715, 1]⟩ ![0])
  (hcat : Shape.Concatenates [(⟨2, ![209715, 1]⟩ : Shape), ⟨2, ![209715, 1]⟩] ⟨2, ![209715, 2]⟩ 1)

/-- A constant word at every update. -/
abbrev splat (b : BitVec 32) : IVec ⟨1, ![209715]⟩ 32 := broadcastInDim ⟨1, ![209715]⟩ ![] hb (constantI ⟨0, ![]⟩ 32 b)

/-- jnp's negative-index wrap of a whole index vector: `i < 0 ↦ i + n`. -/
abbrev wrapped (n : BitVec 32) (v : IVec ⟨1, ![209715]⟩ 32) : IVec ⟨1, ![209715]⟩ 32 :=
  select (cmpi .slt v (splat hb 0#32)) (addi v (splat hb n)) v

/-- The kernel's scatter indices: `rows · 2048 + cols`, wrapped by `2048 · 2048`, as a column. -/
def flatIndices (rows cols : IVec ⟨1, ![209715]⟩ 32) : IVec ⟨2, ![209715, 1]⟩ 32 :=
  broadcastInDim ⟨2, ![209715, 1]⟩ ![0] hcol (wrapped hb 4194304#32 (addi (muli rows (splat hb 2048#32)) cols))

/-- The reference's scatter indices: the pairs `(rows, cols)`, each wrapped by `2048`. -/
def pairIndices (rows cols : IVec ⟨1, ![209715]⟩ 32) : IVec ⟨2, ![209715, 2]⟩ 32 :=
  concatenate ⟨2, ![209715, 2]⟩ 1
    [⟨⟨2, ![209715, 1]⟩, broadcastInDim ⟨2, ![209715, 1]⟩ ![0] hcol (wrapped hb 2048#32 rows)⟩,
     ⟨⟨2, ![209715, 1]⟩, broadcastInDim ⟨2, ![209715, 1]⟩ ![0] hcol (wrapped hb 2048#32 cols)⟩] hcat

theorem flatIndices_apply (rows cols : IVec ⟨1, ![209715]⟩ 32) (j : Fin 209715) :
    flatIndices hb hcol rows cols (ix2 j 0)
      = Scalar.select (IntOp.cmpi .slt (IntOp.addi (IntOp.muli (rows (ix1 j)) 2048#32) (cols (ix1 j))) 0#32)
          (IntOp.addi (IntOp.addi (IntOp.muli (rows (ix1 j)) 2048#32) (cols (ix1 j))) 4194304#32)
          (IntOp.addi (IntOp.muli (rows (ix1 j)) 2048#32) (cols (ix1 j))) := by
  unfold flatIndices
  rw [column_apply]
  rfl

theorem pairIndices_apply0 (rows cols : IVec ⟨1, ![209715]⟩ 32) (j : Fin 209715) :
    pairIndices hb hcol hcat rows cols (ix2 j 0)
      = Scalar.select (IntOp.cmpi .slt (rows (ix1 j)) 0#32) (IntOp.addi (rows (ix1 j)) 2048#32) (rows (ix1 j)) := by
  unfold pairIndices
  rw [pairs_col0, column_apply]
  rfl

theorem pairIndices_apply1 (rows cols : IVec ⟨1, ![209715]⟩ 32) (j : Fin 209715) :
    pairIndices hb hcol hcat rows cols (ix2 j 1)
      = Scalar.select (IntOp.cmpi .slt (cols (ix1 j)) 0#32) (IntOp.addi (cols (ix1 j)) 2048#32) (cols (ix1 j)) := by
  unfold pairIndices
  rw [pairs_col1, column_apply]
  rfl

/-! ## The two scatters -/

/-- THE RESIDUAL MATRIX IS ONE MATRIX: the values accumulated at the flat indices and viewed as `[2048, 2048]` are the
    values accumulated at the index pairs, element by element, when every index is in `[0, 2048)` and the two operands
    agree (both programs start from zeros). -/
theorem flat_scatter_eq_pair_scatter
    (wf1 : ScatterDims.WF ⟨1, ![4194304]⟩ ⟨2, ![209715, 1]⟩ ⟨1, ![209715]⟩ [] [0] [0] 1)
    (wf2 : ScatterDims.WF ⟨2, ![2048, 2048]⟩ ⟨2, ![209715, 2]⟩ ⟨1, ![209715]⟩ [] [0, 1] [0, 1] 1)
    (hsc : (⟨1, ![4194304]⟩ : Shape).ShapeCasts ⟨2, ![2048, 2048]⟩)
    (z1 : (⟨1, ![4194304]⟩ : Shape).Idx → EReal) (z2 : (⟨2, ![2048, 2048]⟩ : Shape).Idx → EReal)
    (hz : ∀ (o k : Fin 2048) (h : o.val * 2048 + k.val < 4194304), z1 (ix1 ⟨o.val * 2048 + k.val, h⟩) = z2 (ix2 o k))
    (rows cols : IVec ⟨1, ![209715]⟩ 32) (vals : (⟨1, ![209715]⟩ : Shape).Idx → EReal)
    (hr : ∀ j, 0 ≤ (rows j).toInt ∧ (rows j).toInt < 2048) (hc : ∀ j, 0 ≤ (cols j).toInt ∧ (cols j).toInt < 2048) :
    shapeCast ⟨2, ![2048, 2048]⟩
        (Host.scatterAdd (F := Ideal) (φ := .f32) (vecScatterDims 4194304 209715 wf1) z1 (flatIndices hb hcol rows cols) vals) hsc
      = Host.scatterAdd (F := Ideal) (φ := .f32) (pairScatterDims 2048 2048 209715 wf2) z2 (pairIndices hb hcol hcat rows cols) vals := by
  funext i
  obtain ⟨o, k, rfl⟩ : ∃ (o k : Fin 2048), i = ix2 o k := ⟨i 0, i 1, eq_ix2 i⟩
  have ho := o.isLt
  have hk := k.isLt
  have hlt : o.val * 2048 + k.val < 4194304 := by omega
  rw [shapeCast_apply _ hsc (ix2 o k) (ix1 ⟨o.val * 2048 + k.val, hlt⟩)
    (by rw [Shape.rowMajor_val_one, Shape.rowMajor_val_two]; rfl)]
  rw [vecScatterAdd_apply, pairScatterAdd_apply, hz o k hlt]
  refine congrArg (fun s => z2 (ix2 o k) + s) ?_
  refine Finset.sum_congr (Finset.filter_congr fun j _ => ?_) fun _ _ => rfl
  obtain ⟨hr0, hr1⟩ := hr (ix1 j)
  obtain ⟨hc0, hc1⟩ := hc (ix1 j)
  rw [flatIndices_apply, pairIndices_apply0, pairIndices_apply1, flat_word _ _ hr0 hr1 hc0 hc1,
    wrap_of_nonneg _ _ hr0, wrap_of_nonneg _ _ hc0]
  show (rows (ix1 j)).toInt * 2048 + (cols (ix1 j)).toInt = ((o.val * 2048 + k.val : Nat) : Int)
    ↔ (rows (ix1 j)).toInt = (o.val : Int) ∧ (cols (ix1 j)).toInt = (k.val : Int)
  constructor
  · intro h; omega
  · rintro ⟨h1, h2⟩; omega

end Indices

end Cert.ScatterBridge

end
-- ==== Proof.Equivalence.lean ====
/-
  The idealized kernel and the idealized reference compute one function of the argument arrays, where every sparse index is
  in range.

  Both build the same dequantized base matrix, by the same operations. The reference adds to it one times the sparse values
  scattered at index PAIRS; the kernel one times the sparse values scattered at FLAT positions and viewed as a matrix:
  one matrix when the indices are in `[0, 2048)`. The reference contracts the flattened tokens with the weight matrix
  along both operands' last axis, `∑ₖ X[r, k] · W[o, k]`; the kernel multiplies the tokens by the transposed matrix,
  `∑ₖ X[r, k] · Wᵀ[k, o]`: the same sum, term by term. Both then view the `[16384, 2048]` product as `[4, 4096, 2048]`.
-/
import proofs.«411356_j833223655699_2_alg».proof.Proof.KernelRun
import proofs.«411356_j833223655699_2_alg».proof.Proof.Gen.ReferenceIdeal.Read
import proofs.«411356_j833223655699_2_alg».proof.Proof.ScatterBridge

set_option maxRecDepth 16384

noncomputable section

open scoped BigOperators

namespace Cert.Equivalence

open Idealize.ShloMosaic Idealize.ShloMosaic.ValueIdx
open Cert.KernelIdeal.KValue Cert.ReferenceIdeal.Read

variable (x0 : FVec Ideal ⟨3, ![4, 4096, 2048]⟩ .f32) (x1 : IVec ⟨2, ![2048, 1024]⟩ 32) (x2 : FVec Ideal ⟨1, ![2048]⟩ .f32)
  (x3 : FVec Ideal ⟨1, ![209715]⟩ .f32) (x4 x5 : IVec ⟨1, ![209715]⟩ 32)

/-- The dequantized base matrix is built by the same operations in both programs. -/
theorem base_eq : base (F := Ideal) x1 x2 = val_main_v15 (F := Ideal) x1 x2 := rfl

/-- The flattened tokens likewise. -/
theorem tokens_eq : xflat (F := Ideal) x0 = val_main_v34 (F := Ideal) x0 := rfl

/-- THE RESIDUAL: scattered flat and viewed as a matrix, or scattered by pairs, it is one matrix when the indices are in
    range. -/
theorem residual_eq (hr : ∀ j, 0 ≤ (x4 j).toInt ∧ (x4 j).toInt < 2048) (hc : ∀ j, 0 ≤ (x5 j).toInt ∧ (x5 j).toInt < 2048) :
    residual (F := Ideal) x3 x4 x5 = val_main_v30 (F := Ideal) x3 x4 x5 :=
  Cert.ScatterBridge.flat_scatter_eq_pair_scatter Cert.KernelIdeal.Facts₀.bcast_S_S209715
    Cert.KernelIdeal.Facts₀.bcast_S209715_S209715x1_0 Cert.ReferenceIdeal.Facts₀.concatenates_S209715x1_S209715x1_S209715x2_d1
    Cert.KernelIdeal.Facts₀.scatter_S4194304_S209715x1_S209715_n_0_0_1_wf
    Cert.ReferenceIdeal.Facts₀.scatter_S2048x2048_S209715x2_S209715_n_01_01_1_wf
    Cert.KernelIdeal.Facts₀.shapeCasts_S4194304_S2048x2048
    (broadcastInDim Cert.KernelIdeal.S4194304 ![] Cert.KernelIdeal.Facts₀.bcast_S_S4194304 (constant (F := Ideal) Cert.KernelIdeal.S_ .f32 0x00000000#32))
    (val_main_v16 (F := Ideal)) (fun _ _ _ => rfl) x4 x5 x3 hr hc

/-- The weight matrices agree. -/
theorem weight_eq (hr : ∀ j, 0 ≤ (x4 j).toInt ∧ (x4 j).toInt < 2048) (hc : ∀ j, 0 ≤ (x5 j).toInt ∧ (x5 j).toInt < 2048) :
    weight (F := Ideal) x1 x2 x3 x4 x5 = val_main_v33 (F := Ideal) x1 x2 x3 x4 x5 := by
  show addf (base (F := Ideal) x1 x2) (mulf _ (residual (F := Ideal) x3 x4 x5))
    = addf (val_main_v15 (F := Ideal) x1 x2) (mulf (val_main_v31 (F := Ideal)) (val_main_v30 (F := Ideal) x3 x4 x5))
  rw [residual_eq x3 x4 x5 hr hc]
  rfl

/-- The products agree: the kernel's `∑ₖ X[r, k] · Wᵀ[k, o]` is the reference's `∑ₖ X[r, k] · W[o, k]`. -/
theorem product_eq (hr : ∀ j, 0 ≤ (x4 j).toInt ∧ (x4 j).toInt < 2048) (hc : ∀ j, 0 ≤ (x5 j).toInt ∧ (x5 j).toInt < 2048) :
    outFlat (xflat (F := Ideal) x0) (weightT (F := Ideal) x1 x2 x3 x4 x5) = val_main_v35 (F := Ideal) x0 x1 x2 x3 x4 x5 := by
  funext i
  obtain ⟨r, o, rfl⟩ : ∃ (r : Fin 16384) (o : Fin 2048), i = ix2 r o := ⟨i 0, i 1, eq_ix2 i⟩
  rw [val_main_v35_apply]
  unfold outFlat
  refine Finset.sum_congr rfl fun k _ => ?_
  have hx : xflat (F := Ideal) x0 (ix2 r k) = val_main_v34 (F := Ideal) x0 (lidx_main_v35 (ix2 r o) k) :=
    congrArg (val_main_v34 (F := Ideal) x0) (funext fun a => match a with | ⟨0, _⟩ => rfl | ⟨1, _⟩ => rfl)
  have hw : weightT (F := Ideal) x1 x2 x3 x4 x5 (ix2 k o) = val_main_v33 (F := Ideal) x1 x2 x3 x4 x5 (ridx_main_v35 (ix2 r o) k) := by
    unfold weightT
    rw [transpose_apply _ _ _ (ix2 k o) (ix2 o k) (fun b => match b with | ⟨0, _⟩ => rfl | ⟨1, _⟩ => rfl),
      weight_eq x1 x2 x3 x4 x5 hr hc]
    exact congrArg (val_main_v33 (F := Ideal) x1 x2 x3 x4 x5) (funext fun a => match a with | ⟨0, _⟩ => rfl | ⟨1, _⟩ => rfl)
  exact congrArg₂ (· * ·) hx hw

/-- THE RESULTS AGREE: the kernel's result is the reference's last stage. -/
theorem result_eq_reference (hr : ∀ j, 0 ≤ (x4 j).toInt ∧ (x4 j).toInt < 2048) (hc : ∀ j, 0 ≤ (x5 j).toInt ∧ (x5 j).toInt < 2048) :
    result x0 x1 x2 x3 x4 x5 = val_main_v36 (F := Ideal) x0 x1 x2 x3 x4 x5 := by
  unfold result val_main_v36
  rw [product_eq x0 x1 x2 x3 x4 x5 hr hc]

end Cert.Equivalence

end
-- ==== Proof.lean ====
/-
  An int4-packed dequantized weight matrix plus a sparse residual, applied to a batch of tokens: the kernel against its
  jnp reference, over the extended reals.

  Both programs build `W[o, i] = (nibble[o, i] − 8) · scale[o] + 1 · R[o, i]` on the host and return `out[t, o] = ∑ᵢ x[t, i] · W[o, i]`
  viewed as `[4, 4096, 2048]`. They differ in two places. The residual `R`: the reference accumulates the sparse values at
  the index pairs `(rows[j], cols[j])` of a zero matrix, the kernel at the flat positions `rows[j] · 2048 + cols[j]` of a zero
  vector it then views as the matrix. The product: the reference is one contraction of the flattened tokens with `W` along
  both last axes; the kernel transposes `W` on the host and, in 32 grid points, multiplies 512 rows of tokens at a time by
  the whole transposed matrix into a zero accumulator.

  The two residuals are one matrix exactly where an update's pair is in range: an out-of-range pair is dropped by the
  reference's scatter while its flat position can land on another element (`(0, 2048)` lands on `(1, 0)`). The precondition
  therefore says, beside the finiteness of the float inputs, that every row and column index lies in `[0, 2048)` — the
  range of the matrix the reference itself indexes with them. Under it `rows[j] · 2048 + cols[j]` does not overflow, is not
  wrapped, and is the row-major position of `(o, k)` iff `rows[j] = o` and `cols[j] = k`, so each element of either residual
  is the sum of the same values. The two products are the same sum term by term (`Wᵀ[k, o] = W[o, k]`), and the row blocks
  tile the output. No step moves a factor across a sum or cancels, so finiteness is not used.

  The three frames: the kernel's and the idealized kernel's are the generated class-A frames; the reference has no kernel and
  its frame is its run with the result dropped. The ideal pass rewrote nothing, so `preserves` is `True`.
-/
import proofs.«411356_j833223655699_2_alg».proof.Defs
import proofs.«411356_j833223655699_2_alg».proof.Proof.Gen.Kernel
import proofs.«411356_j833223655699_2_alg».proof.Proof.Gen.Kernel.Skeleton
import proofs.«411356_j833223655699_2_alg».proof.Proof.Gen.Kernel.Launch
import proofs.«411356_j833223655699_2_alg».proof.Proof.Gen.Kernel.Points
import proofs.«411356_j833223655699_2_alg».proof.Proof.Gen.Kernel.Frame
import proofs.«411356_j833223655699_2_alg».proof.Proof.Gen.KernelIdeal
import proofs.«411356_j833223655699_2_alg».proof.Proof.Gen.KernelIdeal.Skeleton
import proofs.«411356_j833223655699_2_alg».proof.Proof.Gen.KernelIdeal.Launch
import proofs.«411356_j833223655699_2_alg».proof.Proof.Gen.KernelIdeal.Points
import proofs.«411356_j833223655699_2_alg».proof.Proof.Gen.KernelIdeal.Frame
import proofs.«411356_j833223655699_2_alg».proof.Proof.Gen.ReferenceIdeal
import proofs.«411356_j833223655699_2_alg».proof.Proof.Gen.Pre_finite_inputs
import proofs.«411356_j833223655699_2_alg».proof.Proof.Gen.ReferenceIdeal.Run
import proofs.«411356_j833223655699_2_alg».proof.Proof.Gen.ReferenceIdeal.Read
import proofs.«411356_j833223655699_2_alg».proof.Proof.IndexRange
import proofs.«411356_j833223655699_2_alg».proof.Proof.Equivalence
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, of which the precondition holds, both idealized programs end with the result
    buffer at the kernel's function of the arguments: the kernel by its run, the reference because its last stage is that
    function where the indices are in range, which the precondition says. -/
theorem algebraic : Cert.algebraic_KernelIdeal_ReferenceIdeal := by
  intro m ρ m' ρ' hpre hagree
  refine ⟨fun c => Cert.KernelIdeal.KValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  refine (Cert.ReferenceIdeal.Read.val_main_v36_eq _ _ _ _ _ _).trans ?_
  rw [a0, a1, a2, a3, a4, a5]
  exact (Cert.Equivalence.result_eq_reference _ _ _ _ _ _
    (fun j => (Cert.IndexRange.rows_cols_range _ _ _ _ _ _ (hpre c) j).1)
    (fun j => (Cert.IndexRange.rows_cols_range _ _ _ _ _ _ (hpre c) j).2)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
